-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S128x256 : Shape := ⟨2, ![128, 256]⟩
abbrev S128x1 : Shape := ⟨2, ![128, 1]⟩
abbrev S128x4096 : Shape := ⟨2, ![128, 4096]⟩
abbrev S128 : Shape := ⟨1, ![128]⟩
abbrev S_ : Shape := ⟨0, ![]⟩

abbrev nBuf : Space → Nat
  | .hbm => 26
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S4096x256, .f32⟩
  | .local _ .vmem, ⟨3, _⟩ => ⟨S128x1, .i32⟩
  | .local _ .vmem, ⟨4, _⟩ => ⟨S128x1, .i32⟩
  | .local _ .vmem, ⟨5, _⟩ => ⟨S1x4096, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096_S4096x1 : S4096.ShapeCasts S4096x1
  shapeCasts_S4096_S1x4096 : S4096.ShapeCasts S1x4096
  inb_S128x256_S128x256_0_0 : ∀ a, (![0, 0] : Fin 2 → Nat) a + S128x256.size a ≤ S128x256.size a
  h_S128x256 : 0 < S128x256.numel
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  reduces_S128x256_S128 : S128x256.Reduces [1] S128
  shapeCasts_S128_S128x1 : S128.ShapeCasts S128x1
  reduces_S4096x256_S4096 : S4096x256.Reduces [1] S4096
  transposes_S4096x1_p1_0_S1x4096 : S4096x1.Transposes [1, 0] S1x4096
  broadcasts_S128x1_S128x4096 : S128x1.Broadcasts S128x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S128x1_d0_w32 : S128x1.Iotas .tc 32 [0]
  iota_S1x4096_d1_w32 : S1x4096.Iotas .tc 32 [1]
  reduces_S128x4096_S128 : S128x4096.Reduces [1] S128
  natLt_1_32 : 1 < 32
  bcast_S_S4096x1 : S_.BroadcastsInDim S4096x1 (![] : Fin 0 → Fin S4096x1.rank)
  reducesTo_S4096x1_S_d0_1 : S4096x1.ReducesTo [0, 1] S_
  h_S_ : 0 < S_.numel
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)

variable [Facts₀]

def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S256x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .i1⟩
  | .hbm, ⟨45, _⟩ => ⟨S4096, .i1⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_call0_v0 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_call1_v0 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_cst_11 : Ref sig .tc := ⟨.hbm, 59, rfl⟩
abbrev main_call2_v0 : Ref sig .tc := ⟨.hbm, 60, rfl⟩
abbrev main_call2_v1 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_c_13 : Ref sig .tc := ⟨.hbm, 65, rfl⟩
abbrev main_v44 : Ref sig .tc := ⟨.hbm, 66, rfl⟩
abbrev main_c_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  natLt_1_32 : 1 < 32
  reducesTo_S4096_S_d0 : S4096.ReducesTo [0] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.BBody.lean ====
/-
  The kernel body at one grid point. On whole staging buffers — the 128-row block of the features, the whole
  feature matrix, the 128 row labels (a column) and all the labels (a row) at given contents, the three result
  buffers at anything — it runs to the end, leaves the four inputs as they were and each result buffer holding
  ONE store: the rows' farthest-positive distances, nearest-negative distances and validity flags, each the
  body's arithmetic (the named payloads) of what the four loads read. Generic in the float instance.
-/
import proofs.«125580_j86758339379639_1_alg».proof.Proof.Gen.Kernel.Launch
import proofs.«125580_j86758339379639_1_alg».proof.Proof.Gen.Kernel.Skeleton
import proofs.«125580_j86758339379639_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rRows : Rect S128x256 := Rect.unit (s := S128x256) ![0, 0] S128x256.size inb_S128x256_S128x256_0_0
abbrev rAll : Rect S4096x256 := Rect.unit (s := S4096x256) ![0, 0] S4096x256.size inb_S4096x256_S4096x256_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-! ## What the body leaves in each result buffer -/

/-- The farthest-positive column: the row maximum of the distances masked to the positives. -/
def outPos (i : grid0.Coords) (x0 : Vec F S128x256 .f32) (x1 : Vec F S4096x256 .f32) (l0 : Vec F S128x1 .i32) (l1 : Vec F S1x4096 .i32) : Vec F S128x1 .f32 :=
  View.canon [⟨rCol, k0_pay1 (k0_pay8 i (View.ld x0 rRows) (View.ld x1 rAll) (View.ld l0 rCol) (View.ld l1 rRow))⟩]

/-- The nearest-negative column: the row minimum of the distances masked to the negatives. -/
def outNeg (x0 : Vec F S128x256 .f32) (x1 : Vec F S4096x256 .f32) (l0 : Vec F S128x1 .i32) (l1 : Vec F S1x4096 .i32) : Vec F S128x1 .f32 :=
  View.canon [⟨rCol, k0_pay2 (k0_pay4 (View.ld x0 rRows) (View.ld x1 rAll)) (k0_pay7 (F := F) (View.ld l0 rCol) (View.ld l1 rRow))⟩]

/-- The validity column: 1 where the row has a positive and a negative, else 0. -/
def outVal (i : grid0.Coords) (l0 : Vec F S128x1 .i32) (l1 : Vec F S1x4096 .i32) : Vec F S128x1 .f32 :=
  View.canon [⟨rCol, k0_pay3 (F := F) (k0_pay6 (F := F) i (View.ld l0 rCol) (View.ld l1 rRow)) (k0_pay7 (F := F) (View.ld l0 rCol) (View.ld l1 rRow))⟩]

/-- One whole-buffer store covers the buffer. -/
theorem coverCol (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
theorem sound_kernel (c : Dev nD) (E : Set ℕ) (i : grid0.Coords)
    (arg1 : Memref sig .tc .vmem S128x256 .f32) (harg1 : arg1.IsWhole) (arg2 : Memref sig .tc .vmem S4096x256 .f32) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (arg7 : Memref sig .tc .vmem S128x1 .f32) (harg7 : arg7.IsWhole)
    (x0 : Vec F S128x256 .f32) (x1 : Vec F S4096x256 .f32) (l0 : Vec F S128x1 .i32) (l1 : Vec F S1x4096 .i32) (K : PUnit → sProp 𝕄) :
    iprop(owns (c : Thread nD τ) arg1 fullShare x0 ∗ owns (c : Thread nD τ) arg2 fullShare x1
        ∗ owns (c : Thread nD τ) arg3 fullShare l0 ∗ owns (c : Thread nD τ) arg4 fullShare l1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare l0 ∗ owns (c : Thread nD τ) arg4 fullShare l1
            ∗ owns (c : Thread nD τ) arg5 fullShare (outPos i x0 x1 l0 l1) ∗ owns (c : Thread nD τ) arg6 fullShare (outNeg x0 x1 l0 l1)
            ∗ owns (c : Thread nD τ) arg7 fullShare (outVal (F := F) i l0 l1)) -∗ K ⟨⟩))
      ⊢ wp frame (wpE (defs₀ (F := F)) Variants.none c none) E
          (cc0__triplet_kernel i arg1 harg1 arg2 harg2 arg3 harg3 arg4 harg4 arg5 harg5 arg6 harg6 arg7 harg7) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverCol _)
  isplitl [H5]
  · iexists _; isplitr
    swap; · iexact H5
    ipureintro
    try dsimp only
    exact View.read_writes_eq_canon _ _ _ (coverCol _)
  iexists _; isplitr
  swap; · iexact H6
  ipureintro
  try dsimp only
  exact View.read_writes_eq_canon _ _ _ (coverCol _)

end Cert.Kernel.Hand

end
-- ==== Proof.BData.lean ====
/-
  The kernel program's run, part one: the proof data of its one pipeline and the body obligation.

  @main reshapes the labels twice (a column and a row), runs the kernel region over 32 grid points — seven windows:
  the features' 128-row block, the WHOLE feature matrix (the same array again), the labels' 128-row block of the
  column, the whole label row, and three 128-row result blocks — and finishes with host operations on the three
  results. Here: what every window's staging buffer holds after the body at each point (an input its block of the
  array as the region finds it, a result the body's store), and that the body, started on those, ends on those.
  The two windows on the feature matrix each hold half of it (reading needs no more).
-/
import proofs.«125580_j86758339379639_1_alg».proof.Proof.BBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core c's buffers at launch, as a valuation; -/
abbrev V₀ (c : Dev nD) : Valuation τ sig (Elt F) := fun b => (s₀ m ρ).mem ((c : Dev nD), b)
/-- and when the region is entered: the two reshapes of the labels have run. -/
abbrev V (c : Dev nD) (b : Ref sig .tc) : Buf (Elt F) ((c : Thread nD τ).loc b) := StableHlo.after hostOps0 (V₀ m ρ c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- After the body at point t: each input's buffer at its block, each result's at the body's store of the input
    blocks. The invariant is the scoped buffers no window stages (there are none). The feature matrix is held half
    by each of its two windows; every other array whole. Nothing is owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => outPos (grid0.coords t) (iblk m ρ c 0 t) (iblk m ρ c 1 t) (iblk m ρ c 2 t) (iblk m ρ c 3 t)
    | ⟨5, _⟩ => outNeg (iblk m ρ c 0 t) (iblk m ρ c 1 t) (iblk m ρ c 2 t) (iblk m ρ c 3 t)
    | ⟨6, _⟩ => outVal (F := F) (grid0.coords t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t
    = outPos (grid0.coords t) (iblk m ρ c 0 t) (iblk m ρ c 1 t) (iblk m ρ c 2 t) (iblk m ρ c 3 t) := by dsimp only [dats]
theorem after0_5 (c : Dev nD) (t : Fin cfg0.N) : (dats m ρ 0 c).after 5 t
    = outNeg (iblk m ρ c 0 t) (iblk m ρ c 1 t) (iblk m ρ c 2 t) (iblk m ρ c 3 t) := by dsimp only [dats]
theorem after0_6 (c : Dev nD) (t : Fin cfg0.N) : (dats m ρ 0 c).after 6 t
    = outVal (F := F) (grid0.coords t) (iblk m ρ c 2 t) (iblk m ρ c 3 t) := by dsimp only [dats]

/-- Each input's current staging buffer holds its block at every point, fetched there or not. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.BTailDef.lean ====
/-
  What @main computes AFTER the kernel region, as one pure function of the three arrays the region
  leaves (per row: the farthest positive's distance, the nearest negative's, and the row's validity as 0 or 1):
  the rows' losses max (a − b + margin) 0, the number of valid rows Σ v, the valid rows' losses Σ v·loss,
  and their quotient where the count is positive, else 0. Generic in the float instance.
-/
import proofs.«125580_j86758339379639_1_alg».proof.Proof.Gen.Kernel

noncomputable section

namespace Cert.Kernel

open Idealize.ShloMosaic
open Facts₀ Facts

variable {F : FTy → Type} [FloatOps F]

/-- The host operations after the region, composed: from the region's three result arrays to the scalar result. -/
def tailFn (a b v : FVec F S4096x1 .f32) : FVec F S_ .f32 :=
  let d : FVec F S4096x1 .f32 := subf a b
  let dm : FVec F S4096x1 .f32 := addf d (broadcastInDim S4096x1 ![] bcast_S_S4096x1 (constant S_ .f32 0x3E99999A#32))
  let rl : FVec F S4096x1 .f32 := maximumf dm (broadcastInDim S4096x1 ![] bcast_S_S4096x1 (constant S_ .f32 0x00000000#32))
  let cnt : FVec F S_ .f32 := Host.reduceAdd v (constant S_ .f32 0x00000000#32) reducesTo_S4096x1_S_d0_1 h_S_
  let tot : FVec F S_ .f32 := Host.reduceAdd (mulf v rl) (constant S_ .f32 0x00000000#32) reducesTo_S4096x1_S_d0_1 h_S_
  select (cmpf .ogt cnt (constant S_ .f32 0x00000000#32))
    (Host.divf tot (maximumf cnt (constant S_ .f32 0x3F800000#32))) (constant S_ .f32 0x00000000#32)

end Cert.Kernel

end
-- ==== Proof.BRun.lean ====
/-
  The kernel program's run, part two: the launch.

  @main is read as four segments: the two reshapes of the labels, the kernel region, the eighteen host operations on
  the region's three results, and the closing select. The region is entered from the unscoped buffers as the reshapes
  left them. The feature matrix is the array of TWO windows (its 128-row block and the whole of it), so its buffer is
  dealt half to each at entry (reading needs no more than a share) and the halves are gathered again at exit, where
  both still hold the entry contents; every other array goes to its one window whole. After the region the three
  result buffers hold what the write-backs made them and every other buffer what it held; the host operations after
  it then compute the scalar result as their composed function of those three arrays, and write neither argument.
  So: every weakly fair execution of @main terminates, nothing faulting, with the result buffer at that function of
  the three result arrays and both arguments unchanged.
-/
import proofs.«125580_j86758339379639_1_alg».proof.Proof.BData
import proofs.«125580_j86758339379639_1_alg».proof.Proof.BTailDef
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and the pipeline's arrays, listed -/

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1) ∗ (((c : Thread nD τ).loc main_v2_2) ↦{fullShare} W main_v2_2)) := by
  unfold Pipeline.arrBufs
  exact bigSep_eq_bigSepL_of_eq [main_arg0, main_v0, main_v1, main_v2_0, main_v2_1, main_v2_2] (by decide) (by decide) _

theorem arrays_list (c : Dev nD) (Fc : (w : Fin cfg0.W) → Buf (Elt F) ((cfg0.win w).arr.view.loc (c : Thread nD τ))) :
    ((dats m ρ 0 c).arrays Fc : sProp 𝕄)
      = iprop((((c : Thread nD τ).loc main_arg0) ↦{fullShare.left} Fc 0) ∗ (((c : Thread nD τ).loc main_arg0) ↦{fullShare.right} Fc 1)
          ∗ (((c : Thread nD τ).loc main_v0) ↦{fullShare} Fc 2) ∗ (((c : Thread nD τ).loc main_v1) ↦{fullShare} Fc 3)
          ∗ (((c : Thread nD τ).loc main_v2_0) ↦{fullShare} Fc 4) ∗ (((c : Thread nD τ).loc main_v2_1) ↦{fullShare} Fc 5)
          ∗ (((c : Thread nD τ).loc main_v2_2) ↦{fullShare} Fc 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- At entry the arrays' buffers, whole, are the pipeline's arrays: the feature matrix dealt half to each of its windows. -/
theorem arrays_of_arrBufs (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) := by
  rw [arrBufs_list, arrays_list]
  iintro ⟨H0, H2, H3, H4, H5, H6⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-! ## The valuation the region leaves -/

/-- The three result arrays after the last write-back. -/
abbrev finPos (c : Dev nD) : Buf (Elt F) ((c : Thread nD τ).loc main_v2_0) := (dats m ρ 0 c).arrAt 4 cfg0.N
abbrev finNeg (c : Dev nD) : Buf (Elt F) ((c : Thread nD τ).loc main_v2_1) := (dats m ρ 0 c).arrAt 5 cfg0.N
abbrev finVal (c : Dev nD) : Buf (Elt F) ((c : Thread nD τ).loc main_v2_2) := (dats m ρ 0 c).arrAt 6 cfg0.N

/-- Core c's buffers when the region is left: the three results at what the write-backs made them, every other
    buffer as the region found it. -/
def V₁ (c : Dev nD) : Valuation τ sig (Elt F) :=
  Function.update (Function.update (Function.update (StableHlo.after hostOps0 (V₀ m ρ c))
    (Proc.devRef .tc main_v2_0) (finPos m ρ c)) (Proc.devRef .tc main_v2_1) (finNeg m ρ c)) (Proc.devRef .tc main_v2_2) (finVal m ρ c)

theorem V₁_other (c : Dev nD) (b : Ref sig .tc) (h0 : b ≠ main_v2_0) (h1 : b ≠ main_v2_1) (h2 : b ≠ main_v2_2) :
    V₁ m ρ c (Proc.devRef .tc b) = V m ρ c b := by
  unfold V₁
  rw [Function.update_of_ne (StableHlo.devRef_ne_of_ne h2), Function.update_of_ne (StableHlo.devRef_ne_of_ne h1),
    Function.update_of_ne (StableHlo.devRef_ne_of_ne h0)]
theorem V₁_pos (c : Dev nD) : V₁ m ρ c (Proc.devRef .tc main_v2_0) = finPos m ρ c := by
  unfold V₁
  rw [Function.update_of_ne (StableHlo.devRef_ne_of_ne (by decide : main_v2_0 ≠ main_v2_2)),
    Function.update_of_ne (StableHlo.devRef_ne_of_ne (by decide : main_v2_0 ≠ main_v2_1)), Function.update_self]
theorem V₁_neg (c : Dev nD) : V₁ m ρ c (Proc.devRef .tc main_v2_1) = finNeg m ρ c := by
  unfold V₁
  rw [Function.update_of_ne (StableHlo.devRef_ne_of_ne (by decide : main_v2_1 ≠ main_v2_2)), Function.update_self]
theorem V₁_val (c : Dev nD) : V₁ m ρ c (Proc.devRef .tc main_v2_2) = finVal m ρ c := by
  unfold V₁
  rw [Function.update_self]

/-- The buffers no window stages are where they were. -/
theorem unscopedRest_V₁ (c : Dev nD) :
    (Pipeline.unscopedRest (Ix := Unit) (Name := ℕ) (U := UR sig nD τ) (Lvl := ℕ) spec0 c (fun b => V₁ m ρ c (Proc.devRef .tc b)) : sProp 𝕄)
      = Pipeline.unscopedRest spec0 c (V m ρ c) := by
  unfold Pipeline.unscopedRest
  refine bigSep_congr fun b hb => ?_
  have hn : ∀ w : Fin 7, Pipeline.arrRef spec0 w ≠ b := fun w h =>
    (Finset.mem_sdiff.mp hb).2 (Finset.mem_image.mpr ⟨w, Finset.mem_univ _, h⟩)
  beta_reduce
  rw [V₁_other m ρ c b (fun h => hn 4 h.symm) (fun h => hn 5 h.symm) (fun h => hn 6 h.symm)]

/-- At exit the pipeline's arrays are the arrays' buffers, whole, at the valuation the region leaves: the two halves of
    the feature matrix, each still at the entry contents, gathered. -/
theorem arrBufs_of_arrays (c : Dev nD) :
    ((dats m ρ 0 c).arrays ((dats m ρ 0 c).arrAt · cfg0.N) : sProp 𝕄)
      ⊢ Pipeline.arrBufs (Ix := Unit) (Name := ℕ) (U := UR sig nD τ) (Lvl := ℕ) spec0 c (fun b => V₁ m ρ c (Proc.devRef .tc b)) := by
  rw [arrBufs_list, arrays_list]
  beta_reduce
  rw [V₁_other m ρ c main_arg0 (by decide) (by decide) (by decide), V₁_other m ρ c main_v0 (by decide) (by decide) (by decide),
    V₁_other m ρ c main_v1 (by decide) (by decide) (by decide), V₁_pos, V₁_neg, V₁_val,
    (dats m ρ 0 c).arrAt_in 0 rfl cfg0.N, (dats m ρ 0 c).arrAt_in 1 rfl cfg0.N, (dats m ρ 0 c).arrAt_in 2 rfl cfg0.N,
    (dats m ρ 0 c).arrAt_in 3 rfl cfg0.N]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

/-! ## What the buffers hold at the end -/

/-- Core c's buffers after the host operations that follow the region. -/
abbrev Vfin (c : Dev nD) : Valuation τ sig (Elt F) := StableHlo.after hostOps1_1 (StableHlo.after hostOps1 (V₁ m ρ c))

/-- The scalar result is the host tail's function of the three result arrays. -/
theorem Vfin_res (c : Dev nD) :
    Vfin m ρ c (Proc.devRef .tc main_v14) = tailFn (finPos m ρ c) (finNeg m ρ c) (finVal m ρ c) := by
  show StableHlo.after hostOps1_1 (StableHlo.after hostOps1 (V₁ m ρ c)) (Proc.devRef .tc main_v14) = _
  after_results
  rw [V₁_pos, V₁_neg, V₁_val]
  rfl

/-- No operation writes the arguments. -/
theorem Vfin_arg0 (c : Dev nD) : Vfin m ρ c (Proc.devRef .tc main_arg0) = m ((c : Thread nD τ).loc main_arg0) := by
  show StableHlo.after hostOps1_1 (StableHlo.after hostOps1 (V₁ m ρ c)) (Proc.devRef .tc main_arg0) = _
  after_results
  rw [V₁_other m ρ c main_arg0 (by decide) (by decide) (by decide)]
  show StableHlo.after hostOps0 (V₀ m ρ c) (Proc.devRef .tc main_arg0) = _
  after_results
theorem Vfin_arg1 (c : Dev nD) : Vfin m ρ c (Proc.devRef .tc main_arg1) = m ((c : Thread nD τ).loc main_arg1) := by
  show StableHlo.after hostOps1_1 (StableHlo.after hostOps1 (V₁ m ρ c)) (Proc.devRef .tc main_arg1) = _
  after_results
  rw [V₁_other m ρ c main_arg1 (by decide) (by decide) (by decide)]
  show StableHlo.after hostOps0 (V₀ m ρ c) (Proc.devRef .tc main_arg1) = _
  after_results

/-! ## The launch: @main as host operations, the region, host operations -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

theorem fresh_of_forall {ops : List (HloOp τ sig (Elt F))} (h : ops.Forall fun op => op.fresh = ∅) : ∀ op ∈ ops, op.fresh = ∅ :=
  List.forall_iff_forall_mem.mp h

/-- The two reshapes before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The eighteen operations after the region, -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m ρ) R

/-- and the closing select. -/
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h) (fun c => StableHlo.after hostOps1 (V₁ m ρ c)) R

set_option backward.isDefEq.respectTransparency.types false in
/-- The region: entered from the unscoped buffers as the reshapes left them — the windows' arrays into the pipeline,
    the rest bypassing —, left with the three results at their final contents and everything else as it was. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Hab, Hur⟩, HO⟩, -, -⟩
    ihave Ha := (arrays_of_arrBufs m ρ c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m ρ c) = unscopedBufs c (fun b => V₁ m ρ c (Proc.devRef .tc b)) from (Pipeline.unscopedBufs_held c _).symm,
      Pipeline.unscopedBufs_split₀ cfgs 0 winFacts₀0.arr_unscoped c _, unscopedRest_V₁]
    iintro ⟨Ha, HO, -, HZ⟩
    ihave Hb := (arrBufs_of_arrays m ρ c) $$ Ha
    imodintro
    isplitr [HO]
    · isplitl [Hb]; · iexact Hb
      iexact HZ
    · unfold Pipeline.Dat.owesAt Pipeline.owesWithin
      icases HO with ⟨%W, -, HO⟩; iexists W; iexact HO

/-- @main as the list of the four. -/
abbrev segs : List (Pipeline.Seg (pcfgs (F := F)) adm (dats m ρ) () defs₀ 𝒱₀ L lv) :=
  [.host (seg0 m ρ), .region (reg0 m ρ), .host (seg1 m ρ), .host (seg2 m ρ)]

/-- What a final state says: the scalar result is the host tail's function of the three result arrays as the region's
    write-backs left them, and the two arguments are as launched. -/
def QC : PUnit × MemSt nD τ sig (Elt F) → Prop := fun r =>
  ∀ c : Dev nD, r.2.mem ((c : Thread nD τ).loc main_v14) = tailFn (finPos m ρ c) (finNeg m ρ c) (finVal m ρ c)
    ∧ r.2.mem ((c : Thread nD τ).loc main_arg0) = m ((c : Thread nD τ).loc main_arg0)
    ∧ r.2.mem ((c : Thread nD τ).loc main_arg1) = m ((c : Thread nD τ).loc main_arg1)

theorem mem_ucRefs (b : Ref sig .tc) (h : b.isScoped = false) : (Proc.devRef .tc b : DevRef τ sig) ∈ Pipeline.ucRefs τ sig := by
  unfold Pipeline.ucRefs
  refine Finset.mem_filter.mpr ⟨StableHlo.devRef_mem_tcRefs b, ?_⟩
  intro h'; exact Bool.false_ne_true (h.symm.trans h')

set_option backward.isDefEq.respectTransparency.types false in
/-- Every weakly fair execution of @main terminates, nothing faulting, in a state as `QC` says. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vfin m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v14) = tailFn (finPos m ρ c) (finNeg m ρ c) (finVal m ρ c)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (Vfin m ρ c) s') $$ [Hh HSI]
      · isplitl [Hh] <;> iassumption
      icases Hr with ⟨%hr, HSI⟩
      imodintro
      isplitr
      · ipureintro
        exact ⟨(hr _ (mem_ucRefs main_v14 (by decide))).trans (Vfin_res m ρ c),
          (hr _ (mem_ucRefs main_arg0 (by decide))).trans (Vfin_arg0 m ρ c),
          (hr _ (mem_ucRefs main_arg1 (by decide))).trans (Vfin_arg1 m ρ c)⟩
      iexact HSI)
    (hQ := fun _ h => h)

end Cert.Kernel.Hand

end
-- ==== Proof.KBody.lean ====
/-
  The kernel body at one grid point. On whole staging buffers — the 128-row block of the features, the whole
  feature matrix, the 128 row labels (a column) and all the labels (a row) at given contents, the three result
  buffers at anything — it runs to the end, leaves the four inputs as they were and each result buffer holding
  ONE store: the rows' farthest-positive distances, nearest-negative distances and validity flags, each the
  body's arithmetic (the named payloads) of what the four loads read. Generic in the float instance.
-/
import proofs.«125580_j86758339379639_1_alg».proof.Proof.Gen.KernelIdeal.Launch
import proofs.«125580_j86758339379639_1_alg».proof.Proof.Gen.KernelIdeal.Skeleton
import proofs.«125580_j86758339379639_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rRows : Rect S128x256 := Rect.unit (s := S128x256) ![0, 0] S128x256.size inb_S128x256_S128x256_0_0
abbrev rAll : Rect S4096x256 := Rect.unit (s := S4096x256) ![0, 0] S4096x256.size inb_S4096x256_S4096x256_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-! ## What the body leaves in each result buffer -/

/-- The farthest-positive column: the row maximum of the distances masked to the positives. -/
def outPos (i : grid0.Coords) (x0 : Vec F S128x256 .f32) (x1 : Vec F S4096x256 .f32) (l0 : Vec F S128x1 .i32) (l1 : Vec F S1x4096 .i32) : Vec F S128x1 .f32 :=
  View.canon [⟨rCol, k0_pay1 (k0_pay8 i (View.ld x0 rRows) (View.ld x1 rAll) (View.ld l0 rCol) (View.ld l1 rRow))⟩]

/-- The nearest-negative column: the row minimum of the distances masked to the negatives. -/
def outNeg (x0 : Vec F S128x256 .f32) (x1 : Vec F S4096x256 .f32) (l0 : Vec F S128x1 .i32) (l1 : Vec F S1x4096 .i32) : Vec F S128x1 .f32 :=
  View.canon [⟨rCol, k0_pay2 (k0_pay4 (View.ld x0 rRows) (View.ld x1 rAll)) (k0_pay7 (F := F) (View.ld l0 rCol) (View.ld l1 rRow))⟩]

/-- The validity column: 1 where the row has a positive and a negative, else 0. -/
def outVal (i : grid0.Coords) (l0 : Vec F S128x1 .i32) (l1 : Vec F S1x4096 .i32) : Vec F S128x1 .f32 :=
  View.canon [⟨rCol, k0_pay3 (F := F) (k0_pay6 (F := F) i (View.ld l0 rCol) (View.ld l1 rRow)) (k0_pay7 (F := F) (View.ld l0 rCol) (View.ld l1 rRow))⟩]

/-- One whole-buffer store covers the buffer. -/
theorem coverCol (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
theorem sound_kernel (c : Dev nD) (E : Set ℕ) (i : grid0.Coords)
    (arg1 : Memref sig .tc .vmem S128x256 .f32) (harg1 : arg1.IsWhole) (arg2 : Memref sig .tc .vmem S4096x256 .f32) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (arg7 : Memref sig .tc .vmem S128x1 .f32) (harg7 : arg7.IsWhole)
    (x0 : Vec F S128x256 .f32) (x1 : Vec F S4096x256 .f32) (l0 : Vec F S128x1 .i32) (l1 : Vec F S1x4096 .i32) (K : PUnit → sProp 𝕄) :
    iprop(owns (c : Thread nD τ) arg1 fullShare x0 ∗ owns (c : Thread nD τ) arg2 fullShare x1
        ∗ owns (c : Thread nD τ) arg3 fullShare l0 ∗ owns (c : Thread nD τ) arg4 fullShare l1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare l0 ∗ owns (c : Thread nD τ) arg4 fullShare l1
            ∗ owns (c : Thread nD τ) arg5 fullShare (outPos i x0 x1 l0 l1) ∗ owns (c : Thread nD τ) arg6 fullShare (outNeg x0 x1 l0 l1)
            ∗ owns (c : Thread nD τ) arg7 fullShare (outVal (F := F) i l0 l1)) -∗ K ⟨⟩))
      ⊢ wp frame (wpE (defs₀ (F := F)) Variants.none c none) E
          (cc0__triplet_kernel i arg1 harg1 arg2 harg2 arg3 harg3 arg4 harg4 arg5 harg5 arg6 harg6 arg7 harg7) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverCol _)
  isplitl [H5]
  · iexists _; isplitr
    swap; · iexact H5
    ipureintro
    try dsimp only
    exact View.read_writes_eq_canon _ _ _ (coverCol _)
  iexists _; isplitr
  swap; · iexact H6
  ipureintro
  try dsimp only
  exact View.read_writes_eq_canon _ _ _ (coverCol _)

end Cert.KernelIdeal.Hand

end
-- ==== Proof.KData.lean ====
/-
  The kernel program's run, part one: the proof data of its one pipeline and the body obligation.

  @main reshapes the labels twice (a column and a row), runs the kernel region over 32 grid points — seven windows:
  the features' 128-row block, the WHOLE feature matrix (the same array again), the labels' 128-row block of the
  column, the whole label row, and three 128-row result blocks — and finishes with host operations on the three
  results. Here: what every window's staging buffer holds after the body at each point (an input its block of the
  array as the region finds it, a result the body's store), and that the body, started on those, ends on those.
  The two windows on the feature matrix each hold half of it (reading needs no more).
-/
import proofs.«125580_j86758339379639_1_alg».proof.Proof.KBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core c's buffers at launch, as a valuation; -/
abbrev V₀ (c : Dev nD) : Valuation τ sig (Elt F) := fun b => (s₀ m ρ).mem ((c : Dev nD), b)
/-- and when the region is entered: the two reshapes of the labels have run. -/
abbrev V (c : Dev nD) (b : Ref sig .tc) : Buf (Elt F) ((c : Thread nD τ).loc b) := StableHlo.after hostOps0 (V₀ m ρ c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- After the body at point t: each input's buffer at its block, each result's at the body's store of the input
    blocks. The invariant is the scoped buffers no window stages (there are none). The feature matrix is held half
    by each of its two windows; every other array whole. Nothing is owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => outPos (grid0.coords t) (iblk m ρ c 0 t) (iblk m ρ c 1 t) (iblk m ρ c 2 t) (iblk m ρ c 3 t)
    | ⟨5, _⟩ => outNeg (iblk m ρ c 0 t) (iblk m ρ c 1 t) (iblk m ρ c 2 t) (iblk m ρ c 3 t)
    | ⟨6, _⟩ => outVal (F := F) (grid0.coords t) (iblk m ρ c 2 t) (iblk m ρ c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t
    = outPos (grid0.coords t) (iblk m ρ c 0 t) (iblk m ρ c 1 t) (iblk m ρ c 2 t) (iblk m ρ c 3 t) := by dsimp only [dats]
theorem after0_5 (c : Dev nD) (t : Fin cfg0.N) : (dats m ρ 0 c).after 5 t
    = outNeg (iblk m ρ c 0 t) (iblk m ρ c 1 t) (iblk m ρ c 2 t) (iblk m ρ c 3 t) := by dsimp only [dats]
theorem after0_6 (c : Dev nD) (t : Fin cfg0.N) : (dats m ρ 0 c).after 6 t
    = outVal (F := F) (grid0.coords t) (iblk m ρ c 2 t) (iblk m ρ c 3 t) := by dsimp only [dats]

/-- Each input's current staging buffer holds its block at every point, fetched there or not. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m ρ c 0 t) (iblk m ρ c 1 t) (iblk m ρ c 2 t) (iblk m ρ c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KTailDef.lean ====
/-
  What @main computes AFTER the kernel region, as one pure function of the three arrays the region
  leaves (per row: the farthest positive's distance, the nearest negative's, and the row's validity as 0 or 1):
  the rows' losses max (a − b + margin) 0, the number of valid rows Σ v, the valid rows' losses Σ v·loss,
  and their quotient where the count is positive, else 0. Generic in the float instance.
-/
import proofs.«125580_j86758339379639_1_alg».proof.Proof.Gen.KernelIdeal

noncomputable section

namespace Cert.KernelIdeal

open Idealize.ShloMosaic
open Facts₀ Facts

variable {F : FTy → Type} [FloatOps F]

/-- The host operations after the region, composed: from the region's three result arrays to the scalar result. -/
def tailFn (a b v : FVec F S4096x1 .f32) : FVec F S_ .f32 :=
  let d : FVec F S4096x1 .f32 := subf a b
  let dm : FVec F S4096x1 .f32 := addf d (broadcastInDim S4096x1 ![] bcast_S_S4096x1 (constant S_ .f32 0x3E99999A#32))
  let rl : FVec F S4096x1 .f32 := maximumf dm (broadcastInDim S4096x1 ![] bcast_S_S4096x1 (constant S_ .f32 0x00000000#32))
  let cnt : FVec F S_ .f32 := Host.reduceAdd v (constant S_ .f32 0x00000000#32) reducesTo_S4096x1_S_d0_1 h_S_
  let tot : FVec F S_ .f32 := Host.reduceAdd (mulf v rl) (constant S_ .f32 0x00000000#32) reducesTo_S4096x1_S_d0_1 h_S_
  select (cmpf .ogt cnt (constant S_ .f32 0x00000000#32))
    (Host.divf tot (maximumf cnt (constant S_ .f32 0x3F800000#32))) (constant S_ .f32 0x00000000#32)

end Cert.KernelIdeal

end
-- ==== Proof.KRun.lean ====
/-
  The kernel program's run, part two: the launch.

  @main is read as four segments: the two reshapes of the labels, the kernel region, the eighteen host operations on
  the region's three results, and the closing select. The region is entered from the unscoped buffers as the reshapes
  left them. The feature matrix is the array of TWO windows (its 128-row block and the whole of it), so its buffer is
  dealt half to each at entry (reading needs no more than a share) and the halves are gathered again at exit, where
  both still hold the entry contents; every other array goes to its one window whole. After the region the three
  result buffers hold what the write-backs made them and every other buffer what it held; the host operations after
  it then compute the scalar result as their composed function of those three arrays, and write neither argument.
  So: every weakly fair execution of @main terminates, nothing faulting, with the result buffer at that function of
  the three result arrays and both arguments unchanged.
-/
import proofs.«125580_j86758339379639_1_alg».proof.Proof.KData
import proofs.«125580_j86758339379639_1_alg».proof.Proof.KTailDef
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and the pipeline's arrays, listed -/

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1) ∗ (((c : Thread nD τ).loc main_v2_2) ↦{fullShare} W main_v2_2)) := by
  unfold Pipeline.arrBufs
  exact bigSep_eq_bigSepL_of_eq [main_arg0, main_v0, main_v1, main_v2_0, main_v2_1, main_v2_2] (by decide) (by decide) _

theorem arrays_list (c : Dev nD) (Fc : (w : Fin cfg0.W) → Buf (Elt F) ((cfg0.win w).arr.view.loc (c : Thread nD τ))) :
    ((dats m ρ 0 c).arrays Fc : sProp 𝕄)
      = iprop((((c : Thread nD τ).loc main_arg0) ↦{fullShare.left} Fc 0) ∗ (((c : Thread nD τ).loc main_arg0) ↦{fullShare.right} Fc 1)
          ∗ (((c : Thread nD τ).loc main_v0) ↦{fullShare} Fc 2) ∗ (((c : Thread nD τ).loc main_v1) ↦{fullShare} Fc 3)
          ∗ (((c : Thread nD τ).loc main_v2_0) ↦{fullShare} Fc 4) ∗ (((c : Thread nD τ).loc main_v2_1) ↦{fullShare} Fc 5)
          ∗ (((c : Thread nD τ).loc main_v2_2) ↦{fullShare} Fc 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- At entry the arrays' buffers, whole, are the pipeline's arrays: the feature matrix dealt half to each of its windows. -/
theorem arrays_of_arrBufs (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) := by
  rw [arrBufs_list, arrays_list]
  iintro ⟨H0, H2, H3, H4, H5, H6⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-! ## The valuation the region leaves -/

/-- The three result arrays after the last write-back. -/
abbrev finPos (c : Dev nD) : Buf (Elt F) ((c : Thread nD τ).loc main_v2_0) := (dats m ρ 0 c).arrAt 4 cfg0.N
abbrev finNeg (c : Dev nD) : Buf (Elt F) ((c : Thread nD τ).loc main_v2_1) := (dats m ρ 0 c).arrAt 5 cfg0.N
abbrev finVal (c : Dev nD) : Buf (Elt F) ((c : Thread nD τ).loc main_v2_2) := (dats m ρ 0 c).arrAt 6 cfg0.N

/-- Core c's buffers when the region is left: the three results at what the write-backs made them, every other
    buffer as the region found it. -/
def V₁ (c : Dev nD) : Valuation τ sig (Elt F) :=
  Function.update (Function.update (Function.update (StableHlo.after hostOps0 (V₀ m ρ c))
    (Proc.devRef .tc main_v2_0) (finPos m ρ c)) (Proc.devRef .tc main_v2_1) (finNeg m ρ c)) (Proc.devRef .tc main_v2_2) (finVal m ρ c)

theorem V₁_other (c : Dev nD) (b : Ref sig .tc) (h0 : b ≠ main_v2_0) (h1 : b ≠ main_v2_1) (h2 : b ≠ main_v2_2) :
    V₁ m ρ c (Proc.devRef .tc b) = V m ρ c b := by
  unfold V₁
  rw [Function.update_of_ne (StableHlo.devRef_ne_of_ne h2), Function.update_of_ne (StableHlo.devRef_ne_of_ne h1),
    Function.update_of_ne (StableHlo.devRef_ne_of_ne h0)]
theorem V₁_pos (c : Dev nD) : V₁ m ρ c (Proc.devRef .tc main_v2_0) = finPos m ρ c := by
  unfold V₁
  rw [Function.update_of_ne (StableHlo.devRef_ne_of_ne (by decide : main_v2_0 ≠ main_v2_2)),
    Function.update_of_ne (StableHlo.devRef_ne_of_ne (by decide : main_v2_0 ≠ main_v2_1)), Function.update_self]
theorem V₁_neg (c : Dev nD) : V₁ m ρ c (Proc.devRef .tc main_v2_1) = finNeg m ρ c := by
  unfold V₁
  rw [Function.update_of_ne (StableHlo.devRef_ne_of_ne (by decide : main_v2_1 ≠ main_v2_2)), Function.update_self]
theorem V₁_val (c : Dev nD) : V₁ m ρ c (Proc.devRef .tc main_v2_2) = finVal m ρ c := by
  unfold V₁
  rw [Function.update_self]

/-- The buffers no window stages are where they were. -/
theorem unscopedRest_V₁ (c : Dev nD) :
    (Pipeline.unscopedRest (Ix := Unit) (Name := ℕ) (U := UR sig nD τ) (Lvl := ℕ) spec0 c (fun b => V₁ m ρ c (Proc.devRef .tc b)) : sProp 𝕄)
      = Pipeline.unscopedRest spec0 c (V m ρ c) := by
  unfold Pipeline.unscopedRest
  refine bigSep_congr fun b hb => ?_
  have hn : ∀ w : Fin 7, Pipeline.arrRef spec0 w ≠ b := fun w h =>
    (Finset.mem_sdiff.mp hb).2 (Finset.mem_image.mpr ⟨w, Finset.mem_univ _, h⟩)
  beta_reduce
  rw [V₁_other m ρ c b (fun h => hn 4 h.symm) (fun h => hn 5 h.symm) (fun h => hn 6 h.symm)]

/-- At exit the pipeline's arrays are the arrays' buffers, whole, at the valuation the region leaves: the two halves of
    the feature matrix, each still at the entry contents, gathered. -/
theorem arrBufs_of_arrays (c : Dev nD) :
    ((dats m ρ 0 c).arrays ((dats m ρ 0 c).arrAt · cfg0.N) : sProp 𝕄)
      ⊢ Pipeline.arrBufs (Ix := Unit) (Name := ℕ) (U := UR sig nD τ) (Lvl := ℕ) spec0 c (fun b => V₁ m ρ c (Proc.devRef .tc b)) := by
  rw [arrBufs_list, arrays_list]
  beta_reduce
  rw [V₁_other m ρ c main_arg0 (by decide) (by decide) (by decide), V₁_other m ρ c main_v0 (by decide) (by decide) (by decide),
    V₁_other m ρ c main_v1 (by decide) (by decide) (by decide), V₁_pos, V₁_neg, V₁_val,
    (dats m ρ 0 c).arrAt_in 0 rfl cfg0.N, (dats m ρ 0 c).arrAt_in 1 rfl cfg0.N, (dats m ρ 0 c).arrAt_in 2 rfl cfg0.N,
    (dats m ρ 0 c).arrAt_in 3 rfl cfg0.N]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

/-! ## What the buffers hold at the end -/

/-- Core c's buffers after the host operations that follow the region. -/
abbrev Vfin (c : Dev nD) : Valuation τ sig (Elt F) := StableHlo.after hostOps1_1 (StableHlo.after hostOps1 (V₁ m ρ c))

/-- The scalar result is the host tail's function of the three result arrays. -/
theorem Vfin_res (c : Dev nD) :
    Vfin m ρ c (Proc.devRef .tc main_v14) = tailFn (finPos m ρ c) (finNeg m ρ c) (finVal m ρ c) := by
  show StableHlo.after hostOps1_1 (StableHlo.after hostOps1 (V₁ m ρ c)) (Proc.devRef .tc main_v14) = _
  after_results
  rw [V₁_pos, V₁_neg, V₁_val]
  rfl

/-- No operation writes the arguments. -/
theorem Vfin_arg0 (c : Dev nD) : Vfin m ρ c (Proc.devRef .tc main_arg0) = m ((c : Thread nD τ).loc main_arg0) := by
  show StableHlo.after hostOps1_1 (StableHlo.after hostOps1 (V₁ m ρ c)) (Proc.devRef .tc main_arg0) = _
  after_results
  rw [V₁_other m ρ c main_arg0 (by decide) (by decide) (by decide)]
  show StableHlo.after hostOps0 (V₀ m ρ c) (Proc.devRef .tc main_arg0) = _
  after_results
theorem Vfin_arg1 (c : Dev nD) : Vfin m ρ c (Proc.devRef .tc main_arg1) = m ((c : Thread nD τ).loc main_arg1) := by
  show StableHlo.after hostOps1_1 (StableHlo.after hostOps1 (V₁ m ρ c)) (Proc.devRef .tc main_arg1) = _
  after_results
  rw [V₁_other m ρ c main_arg1 (by decide) (by decide) (by decide)]
  show StableHlo.after hostOps0 (V₀ m ρ c) (Proc.devRef .tc main_arg1) = _
  after_results

/-! ## The launch: @main as host operations, the region, host operations -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

theorem fresh_of_forall {ops : List (HloOp τ sig (Elt F))} (h : ops.Forall fun op => op.fresh = ∅) : ∀ op ∈ ops, op.fresh = ∅ :=
  List.forall_iff_forall_mem.mp h

/-- The two reshapes before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The eighteen operations after the region, -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m ρ) R

/-- and the closing select. -/
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h) (fun c => StableHlo.after hostOps1 (V₁ m ρ c)) R

set_option backward.isDefEq.respectTransparency.types false in
/-- The region: entered from the unscoped buffers as the reshapes left them — the windows' arrays into the pipeline,
    the rest bypassing —, left with the three results at their final contents and everything else as it was. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Hab, Hur⟩, HO⟩, -, -⟩
    ihave Ha := (arrays_of_arrBufs m ρ c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m ρ c) = unscopedBufs c (fun b => V₁ m ρ c (Proc.devRef .tc b)) from (Pipeline.unscopedBufs_held c _).symm,
      Pipeline.unscopedBufs_split₀ cfgs 0 winFacts₀0.arr_unscoped c _, unscopedRest_V₁]
    iintro ⟨Ha, HO, -, HZ⟩
    ihave Hb := (arrBufs_of_arrays m ρ c) $$ Ha
    imodintro
    isplitr [HO]
    · isplitl [Hb]; · iexact Hb
      iexact HZ
    · unfold Pipeline.Dat.owesAt Pipeline.owesWithin
      icases HO with ⟨%W, -, HO⟩; iexists W; iexact HO

/-- @main as the list of the four. -/
abbrev segs : List (Pipeline.Seg (pcfgs (F := F)) adm (dats m ρ) () defs₀ 𝒱₀ L lv) :=
  [.host (seg0 m ρ), .region (reg0 m ρ), .host (seg1 m ρ), .host (seg2 m ρ)]

/-- What a final state says: the scalar result is the host tail's function of the three result arrays as the region's
    write-backs left them, and the two arguments are as launched. -/
def QC : PUnit × MemSt nD τ sig (Elt F) → Prop := fun r =>
  ∀ c : Dev nD, r.2.mem ((c : Thread nD τ).loc main_v14) = tailFn (finPos m ρ c) (finNeg m ρ c) (finVal m ρ c)
    ∧ r.2.mem ((c : Thread nD τ).loc main_arg0) = m ((c : Thread nD τ).loc main_arg0)
    ∧ r.2.mem ((c : Thread nD τ).loc main_arg1) = m ((c : Thread nD τ).loc main_arg1)

theorem mem_ucRefs (b : Ref sig .tc) (h : b.isScoped = false) : (Proc.devRef .tc b : DevRef τ sig) ∈ Pipeline.ucRefs τ sig := by
  unfold Pipeline.ucRefs
  refine Finset.mem_filter.mpr ⟨StableHlo.devRef_mem_tcRefs b, ?_⟩
  intro h'; exact Bool.false_ne_true (h.symm.trans h')

set_option backward.isDefEq.respectTransparency.types false in
/-- Every weakly fair execution of @main terminates, nothing faulting, in a state as `QC` says. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Vfin m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v14) = tailFn (finPos m ρ c) (finNeg m ρ c) (finVal m ρ c)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (Vfin m ρ c) s') $$ [Hh HSI]
      · isplitl [Hh] <;> iassumption
      icases Hr with ⟨%hr, HSI⟩
      imodintro
      isplitr
      · ipureintro
        exact ⟨(hr _ (mem_ucRefs main_v14 (by decide))).trans (Vfin_res m ρ c),
          (hr _ (mem_ucRefs main_arg0 (by decide))).trans (Vfin_arg0 m ρ c),
          (hr _ (mem_ucRefs main_arg1 (by decide))).trans (Vfin_arg1 m ρ c)⟩
      iexact HSI)
    (hQ := fun _ h => h)

end Cert.KernelIdeal.Hand

end
-- ==== Proof.KBlocks.lean ====
/-
  The windows' blocks read element by element: which entry of its array each entry of a window's block at grid
  point t is. The block index maps are decided over the 32 grid points: the three row-block input and result windows
  sit at block t (rows 128·t … 128·t + 127), the two whole-array windows at block 0.
-/
import proofs.«125580_j86758339379639_1_alg».proof.Proof.KData
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks, element by element -/

/-- The printed index maps over the grid: the row-block windows are at block t, the whole-array windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt32 (t : Fin cfg0.N) : t.val < 32 := by
  have h : t.val < grid0.N := t.isLt
  rw [N_0] at h; exact h

/-- Row p of the feature block at point t is row 128·t + p of the feature matrix. -/
theorem blk_rows (c : Dev nD) (t : Fin cfg0.N) (p : Fin 128) (k : Fin 256) :
    iblk m ρ c 0 t (ix2 p k) = V m ρ c main_arg0 (ix2 (⟨128 * t.val + p.val, by have := lt32 t; omega⟩ : Fin 4096) k) := by
  obtain ⟨e0, e1, -⟩ := idx_facts t
  show V m ρ c main_arg0 (((cfg0.win 0).blk t).view.emb (ix2 p k)) = _
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 256 + 1 * k.val = k.val; omega

/-- The second feature window is the whole matrix. -/
theorem blk_all (c : Dev nD) (t : Fin cfg0.N) (j : Fin 4096) (k : Fin 256) :
    iblk m ρ c 1 t (ix2 j k) = V m ρ c main_arg0 (ix2 j k) := by
  obtain ⟨-, -, e0, e1, -⟩ := idx_facts t
  show V m ρ c main_arg0 (((cfg0.win 1).blk t).view.emb (ix2 j k)) = _
  refine congrArg _ (funext fun a => Fin.ext ?_)
  match a with
  | ⟨0, _⟩ => show win0_1.index t (0 : Fin 2) * 4096 + 1 * j.val = j.val; omega
  | ⟨1, _⟩ => show win0_1.index t (1 : Fin 2) * 256 + 1 * k.val = k.val; omega

/-- Row p of the label column's block at point t is entry 128·t + p of the column. -/
theorem blk_col (c : Dev nD) (t : Fin cfg0.N) (p : Fin 128) :
    iblk m ρ c 2 t (ix2 p 0) = V m ρ c main_v0 (ix2 (⟨128 * t.val + p.val, by have := lt32 t; omega⟩ : Fin 4096) 0) := by
  obtain ⟨-, -, -, -, e0, e1, -⟩ := idx_facts t
  show V m ρ c main_v0 (((cfg0.win 2).blk t).view.emb (ix2 p 0)) = _
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1 + 1 * 0 = 0; omega

/-- The label row's window is the whole row. -/
theorem blk_row (c : Dev nD) (t : Fin cfg0.N) (j : Fin 4096) :
    iblk m ρ c 3 t (ix2 0 j) = V m ρ c main_v1 (ix2 0 j) := by
  obtain ⟨-, -, -, -, -, -, e0, e1, -⟩ := idx_facts t
  show V m ρ c main_v1 (((cfg0.win 3).blk t).view.emb (ix2 0 j)) = _
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * j.val = j.val; omega

end Cert.KernelIdeal.Hand

end
-- ==== Proof.Spec.lean ====
/-
  The triplet loss with hardest-positive / hardest-negative mining, as ONE function of the feature
  matrix x (4096 rows of 256 extended reals) and the label vector (4096 words), written index by index.

  For rows i, j:  sqn i = Σ_k x[i,k]²,  cross i j = Σ_k x[i,k]·x[j,k],
    dist i j = sqrt (max ((sqn i + sqn j) − 2·cross i j) ε);
  j is a POSITIVE of i when the labels agree and j ≠ i, a NEGATIVE when the labels differ;
    hardPos i = max over j of (dist i j where j is a positive of i, else the stand-in −1e30), from −∞,
    hardNeg i = min over j of (dist i j where j is a negative of i, else the stand-in +1e30), from +∞;
  row i is VALID when it has a positive and a negative; its loss is max (hardPos i − hardNeg i + margin) 0;
  the result is the mean of the valid rows' losses (0 when no row is valid).
  Float literals stay the words the two programs share; none is evaluated here.
-/
import Idealize.ShloMosaic.PureOps.Ideal
import Idealize.ShloMosaic.Lib.ValueIdx

noncomputable section

open scoped BigOperators

namespace Cert.Triplet

open Idealize.ShloMosaic Idealize.ShloMosaic.ValueIdx

/-- The feature matrix's shape and the label vector's. -/
abbrev SX : Shape := ⟨2, ![4096, 256]⟩
abbrev SLab : Shape := ⟨1, ![4096]⟩

variable (x : SX.Idx → EReal) (lab : SLab.Idx → BitVec 32)

/-- The literals, as the words both programs print. -/
def two : EReal := Ideal.ofBits .f32 0x40000000#32
def eps : EReal := Ideal.ofBits .f32 0x2B8CBCCC#32
def negBig : EReal := Ideal.ofBits .f32 0xF149F2CA#32
def posBig : EReal := Ideal.ofBits .f32 0x7149F2CA#32
def negInf : EReal := Ideal.ofBits .f32 0xFF800000#32
def posInf : EReal := Ideal.ofBits .f32 0x7F800000#32
def margin : EReal := Ideal.ofBits .f32 0x3E99999A#32

/-- A row's squared norm. -/
def sqn (i : Fin 4096) : EReal := ∑ k : Fin 256, x (ix2 i k) * x (ix2 i k)
/-- Two rows' inner product. -/
def cross (i j : Fin 4096) : EReal := ∑ k : Fin 256, x (ix2 i k) * x (ix2 j k)
/-- Their distance, the squared distance clamped below by ε before the root. -/
def dist (i j : Fin 4096) : EReal := Ideal.sqrt (max ((sqn x i + sqn x j) - two * cross x i j) eps)

/-- Rows i and j carry one label. -/
def same (i j : Fin 4096) : Bool := decide (lab (ix1 i) = lab (ix1 j))
/-- j is a positive of i: same label, another row. -/
def pos (i j : Fin 4096) : Bool := same lab i j && !decide (i = j)
/-- j is a negative of i: another label. -/
def neg (i j : Fin 4096) : Bool := !same lab i j

/-- The farthest positive of row i (the stand-in −1e30 at every j that is none), from −∞. -/
def hardPos (i : Fin 4096) : EReal :=
  Finset.univ.fold max negInf fun j : Fin 4096 => if pos lab i j then dist x i j else negBig
/-- The nearest negative of row i (the stand-in +1e30 at every j that is none), from +∞. -/
def hardNeg (i : Fin 4096) : EReal :=
  Finset.univ.fold min posInf fun j : Fin 4096 => if neg lab i j then dist x i j else posBig

/-- Row i has a positive and a negative. -/
def valid (i : Fin 4096) : Bool := decide (∃ j, pos lab i j = true) && decide (∃ j, neg lab i j = true)

/-- Row i's loss. -/
def rowLoss (i : Fin 4096) : EReal := max ((hardPos x lab i - hardNeg x lab i) + margin) 0

/-- How many rows are valid. -/
def count : ℕ := (Finset.univ.filter fun i : Fin 4096 => valid lab i = true).card
/-- The valid rows' losses, added. -/
def total : EReal := ∑ i : Fin 4096, if valid lab i then rowLoss x lab i else 0

/-- The mean loss over the valid rows; 0 when there is none. -/
def loss : EReal :=
  if 0 < count lab then Ideal.div (total x lab) (((max (count lab) 1 : ℕ) : ℝ) : EReal) else 0

end Cert.Triplet

end
-- ==== Proof.KPay.lean ====
/-
  The kernel body's arithmetic at one row, on extended reals.

  At a grid point the body reads a block of 128 feature rows, the whole 4096 × 256 feature matrix, the block's 128
  labels (a column) and all 4096 labels (a row). From them it forms, for row p of the block and every row j of the matrix,
  the distance  sqrt (max ((|x_p|² + |x_j|²) − 2·⟨x_p, x_j⟩) ε)  — the inner products by one matrix product, the squared
  norms by row sums carried through a column and a row —, the mask "same label, other row" (the other-row test compares
  128·i + p with j on 32-bit words, which do not wrap below 2³¹) and the mask "other label"; then per row the maximum of
  the distances over the first mask (the stand-in −1e30 elsewhere, from −∞), the minimum over the second (+1e30 elsewhere,
  from +∞), and the flag "both masks are somewhere set" as 1 or 0, each "somewhere set" computed as
  (max over j of (1 where set, else 0), from −∞) > 0.

  Here each of these is read at one index, operation by operation, and the three results at row p of grid point t are
  shown to be the specification's farthest positive, nearest negative and validity flag of row 128·t + p
  (`pay_pos`, `pay_neg`, `pay_val`), given that the four loads hold the corresponding entries of the feature matrix and
  the label vector. The float literals stay the words both sides share; only −∞, +∞, 1 and 0 are read as numbers.
-/
import proofs.«125580_j86758339379639_1_alg».proof.Proof.Gen.KernelIdeal.Skeleton
import proofs.«125580_j86758339379639_1_alg».proof.Proof.Spec
import Idealize.ShloMosaic.PureOps.Ideal.Laws
import Idealize.ShloMosaic.Lib.ValueIdx
import Idealize.ShloMosaic.Lib.ValueLayout

noncomputable section

open scoped BigOperators

namespace Cert.Triplet.Pay

open Idealize.ShloMosaic Idealize.ShloMosaic.ValueIdx
open Cert.KernelIdeal

/-! ## Layout operations at an index -/

section Layout
variable {α : Type}

/-- A vector cast to a column reads, at (p, u), the vector at p. -/
theorem shapeCast_col_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along its rows reads, at (p, c), the column at p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p of the reduced shape with coordinate k put back on the column axis is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

end Layout

/-! ## Row reductions at an index -/

/-- A row sum: the sum over the columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_row h p k)

/-- A row maximum: the fold of max over the columns, from the accumulator word's value. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (fun k => src (h.lift (ix1 p) k)) = _
  exact congrArg (fun f => (Finset.univ : Finset (Fin b)).fold max (Ideal.ofBits .f32 0xFF800000#32) f)
    (funext fun k => congrArg src (lift_row h p k))

/-- A row minimum: the fold of min over the columns, from the accumulator word's value. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) := by
  refine (multiReduction_minimumf_eq_fold src 0x7F800000#32 h hφ hacc (ix1 p)).trans ?_
  refine (h.fold_filter_drop_single (FloatOps.minimumf (F := Ideal) (φ := .f32)) _ src (ix1 p)).trans ?_
  show (Finset.univ : Finset (Fin b)).fold min (Ideal.ofBits .f32 0x7F800000#32) (fun k => src (h.lift (ix1 p) k)) = _
  exact congrArg (fun f => (Finset.univ : Finset (Fin b)).fold min (Ideal.ofBits .f32 0x7F800000#32) f)
    (funext fun k => congrArg src (lift_row h p k))

/-! ## The matrix product at an index -/

theorem lhs_dot_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide),
    dif_pos (show (0 : Fin S128x256.rank) ∈ dot_S128x256_S4096x256_S128x4096_1_1_0_0_n_n.lhsNonContracting by decide)]
  rfl
theorem lhs_dot_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
theorem rhs_dot_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide),
    dif_pos (show (0 : Fin S4096x256.rank) ∈ dot_S128x256_S4096x256_S128x4096_1_1_0_0_n_n.rhsNonContracting by decide)]
  rfl
theorem rhs_dot_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- The product of the row block with the transposed matrix, into the zero accumulator: at (p, j) the inner
    product of row p of the block and row j of the matrix. -/
theorem matmul_zero_apply (l : FVec Ideal S128x256 .bf16) (r : FVec Ideal S4096x256 .bf16) (p : Fin 128) (j : Fin 4096) :
    matmul dot_S128x256_S4096x256_S128x4096_1_1_0_0_n_n none l r (constant (F := Ideal) S128x4096 .f32 0x00000000#32) (ix2 p j)
      = ∑ k : Fin 256, l (ix2 p k) * r (ix2 j k) := by
  simp only [matmul]
  rw [Ideal.matmul_constant_zero_apply, ← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 p j) ((contrEquiv1 dot_S128x256_S4096x256_S128x4096_1_1_0_0_n_n 256 rfl rfl).symm k) = ix2 p k :=
    funext fun a => Fin.ext (by
      match a with
      | ⟨0, _⟩ => exact lhs_dot_0 _ _
      | ⟨1, _⟩ => exact (lhs_dot_1 _ _).trans hk)
  have er : dot_S128x256_S4096x256_S128x4096_1_1_0_0_n_n.rhsIdx (ix2 p j) ((contrEquiv1 dot_S128x256_S4096x256_S128x4096_1_1_0_0_n_n 256 rfl rfl).symm k) = ix2 j k :=
    funext fun a => Fin.ext (by
      match a with
      | ⟨0, _⟩ => exact rhs_dot_0 _ _
      | ⟨1, _⟩ => exact (rhs_dot_1 _ _).trans hk)
  rw [el, er]

/-! ## The distance payload at an index -/

/-- The block's squared row norms, as a column broadcast along the rows. -/
theorem sqnRows_apply (v : FVec Ideal S128x256 .f32) (hr : S128x256.Reduces [1] S128) (hφ : FKind.Formats .f32)
    (hacc : (0x00000000#32 : BitVec 32) = 0x00000000#32) (hs : S128.ShapeCasts S128x1) (hb : S128x1.Broadcasts S128x4096)
    (p : Fin 128) (j : Fin 4096) :
    broadcastTo S128x4096 (shapeCast S128x1 (multiReduction .add [1] S128 (mulf v v) 0x00000000#32 hr hφ hacc) hs) hb (ix2 p j)
      = ∑ k : Fin 256, v (ix2 p k) * v (ix2 p k) := by
  refine (broadcastTo_col_apply _ hb p j).trans ?_
  refine (shapeCast_col_apply _ hs p 0).trans ?_
  exact rowSum_apply (mulf v v) hr hφ hacc p

/-- The matrix's squared row norms, as a row broadcast along the columns. -/
theorem sqnAll_apply (v : FVec Ideal S4096x256 .f32) (hr : S4096x256.Reduces [1] S4096) (hφ : FKind.Formats .f32)
    (hacc : (0x00000000#32 : BitVec 32) = 0x00000000#32) (hs : S4096.ShapeCasts S4096x1)
    (ht : S4096x1.Transposes [1, 0] S1x4096) (hb : S1x4096.Broadcasts S128x4096) (p : Fin 128) (j : Fin 4096) :
    broadcastTo S128x4096 (transpose S1x4096 [1, 0]
        (shapeCast S4096x1 (multiReduction .add [1] S4096 (mulf v v) 0x00000000#32 hr hφ hacc) hs) ht) hb (ix2 p j)
      = ∑ k : Fin 256, v (ix2 j k) * v (ix2 j k) := by
  refine (broadcastTo_1b_ab_apply _ hb p j).trans ?_
  refine (transpose_ix2_apply _ ht (0 : Fin 1) j).trans ?_
  refine (shapeCast_col_apply _ hs j 0).trans ?_
  exact rowSum_apply (mulf v v) hr hφ hacc j

/-- The distance payload at (p, j), over the two loads. -/
theorem pay4_apply (v1 : Vec Ideal S128x256 .f32) (v2 : Vec Ideal S4096x256 .f32) (p : Fin 128) (j : Fin 4096) :
    Gen.k0_pay4 (F := Ideal) v1 v2 (ix2 p j)
      = Ideal.sqrt (max (((∑ k : Fin 256, v1 (ix2 p k) * v1 (ix2 p k)) + ∑ k : Fin 256, v2 (ix2 j k) * v2 (ix2 j k))
          - Ideal.ofBits .f32 0x40000000#32 * ∑ k : Fin 256, v1 (ix2 p k) * v2 (ix2 j k))
          (Ideal.ofBits .f32 0x2B8CBCCC#32)) := by
  have hA := sqnRows_apply v1 Gen.reduces_S128x256_S128 (.inl rfl) rfl Gen.shapeCasts_S128_S128x1
    Gen.broadcasts_S128x1_S128x4096 p j
  have hB := sqnAll_apply v2 Gen.reduces_S4096x256_S4096 (.inl rfl) rfl Gen.shapeCasts_S4096_S4096x1
    Gen.transposes_S4096x1_p1_0_S1x4096 Gen.broadcasts_S1x4096_S128x4096 p j
  have hM : matmul dot_S128x256_S4096x256_S128x4096_1_1_0_0_n_n none (truncf .bf16 v1 Gen.bitsLt_bf16_f32) (truncf .bf16 v2 Gen.bitsLt_bf16_f32)
      (constant (F := Ideal) S128x4096 .f32 0x00000000#32) (ix2 p j) = ∑ k : Fin 256, v1 (ix2 p k) * v2 (ix2 j k) :=
    matmul_zero_apply _ _ p j
  unfold Gen.k0_pay4
  refine Eq.trans ?_ (congrArg (fun t => Ideal.sqrt (max t (Ideal.ofBits .f32 0x2B8CBCCC#32)))
    (congrArg₂ (fun a m => a - Ideal.ofBits .f32 0x40000000#32 * m) (congrArg₂ (· + ·) hA hB) hM))
  rfl

/-! ## The literal words that are read as numbers -/

/-- The maximum's starting word is −∞. -/
theorem negInf_eq : Ideal.ofBits .f32 0xFF800000#32 = ⊥ := by simp [Ideal.ofBits, Ideal.ieee]
/-- The minimum's starting word is +∞. -/
theorem posInf_eq : Ideal.ofBits .f32 0x7F800000#32 = ⊤ := by simp [Ideal.ofBits, Ideal.ieee]
/-- The word of 1.0 is 1. -/
theorem one_eq : Ideal.ofBits .f32 0x3F800000#32 = 1 := IdealRules.sign_bit.ideal_onePat .f32

/-! ## One-bit words -/

/-- A select on a truth value's bit is the `if`. -/
theorem select_ofBool {α : Type} (b : Bool) (x y : α) : Scalar.select (BitVec.ofBool b) x y = if b then x else y := by
  cases b
  · exact (select_zero x y).trans (if_neg Bool.false_ne_true).symm
  · exact (select_one x y).trans (if_pos rfl).symm

/-- Exclusive-or with the set bit negates. -/
theorem xori_ofBool_one (a : Bool) : IntOp.xori (BitVec.ofBool a) 1#1 = BitVec.ofBool (!a) := by
  cases a <;> decide

/-- The conjunction of two bits. -/
theorem andi_ofBool (a b : Bool) : IntOp.andi (BitVec.ofBool a) (BitVec.ofBool b) = BitVec.ofBool (a && b) := by
  cases a <;> cases b <;> decide

/-- Equality of words, as a bit. -/
theorem cmpi_eq_ofBool {w : ℕ} (x y : BitVec w) : IntOp.cmpi .eq x y = BitVec.ofBool (decide (x = y)) := by
  show BitVec.ofBool (x == y) = _
  rw [beq_eq_decide]

/-- A truth value's bit is set exactly when it is true. -/
theorem ofBool_eq_one (b : Bool) : BitVec.ofBool b = 1#1 ↔ b = true := by
  cases b <;> decide

/-- Row 128·n + p of the matrix against column j, on 32-bit words: no wrap below 2^31. -/
theorem eye_bit (n p j : ℕ) (hn : n < 32) (hp : p < 128) (hj : j < 4096) :
    IntOp.cmpi .eq (IntOp.addi (Scalar.muli (BitVec.ofNat 32 n) 128#32) (BitVec.ofNat 32 p)) (BitVec.ofNat 32 j)
      = BitVec.ofBool (decide (128 * n + p = j)) := by
  have hx : IntOp.addi (Scalar.muli (BitVec.ofNat 32 n) 128#32) (BitVec.ofNat 32 p) = BitVec.ofNat 32 (128 * n + p) := by
    apply BitVec.eq_of_toNat_eq
    simp only [IntOp.addi, Scalar.muli, IntOp.muli, BitVec.toNat_add, BitVec.toNat_mul, BitVec.toNat_ofNat]
    omega
  rw [hx, cmpi_eq_ofBool]
  congr 1
  rw [Bool.eq_iff_iff, decide_eq_true_eq, decide_eq_true_eq]
  constructor
  · intro h
    have := congrArg BitVec.toNat h
    simp only [BitVec.toNat_ofNat] at this
    omega
  · intro h; rw [h]

/-! ## The mask payloads at an index -/

/-- The label-equality mask at (p, j): the block's label p against label j. -/
theorem pay5_apply (v22 : Vec Ideal S128x1 .i32) (v24 : Vec Ideal S1x4096 .i32) (p : Fin 128) (j : Fin 4096) :
    Gen.k0_pay5 (F := Ideal) v22 v24 (ix2 p j)
      = BitVec.ofBool (decide (v22 (ix2 p (0 : Fin 1)) = v24 (ix2 (0 : Fin 1) j))) := by
  have hA : broadcastTo S128x4096 (shapeCast S128x1 v22 Gen.shapeCasts_S128x1_S128x1) Gen.broadcasts_S128x1_S128x4096 (ix2 p j)
      = v22 (ix2 p (0 : Fin 1)) := by
    rw [shapeCast_self]; exact broadcastTo_col_apply _ _ p j
  have hB : broadcastTo S128x4096 (shapeCast S1x4096 v24 Gen.shapeCasts_S1x4096_S1x4096) Gen.broadcasts_S1x4096_S128x4096 (ix2 p j)
      = v24 (ix2 (0 : Fin 1) j) := by
    rw [shapeCast_self]; exact broadcastTo_1b_ab_apply _ _ p j
  unfold Gen.k0_pay5
  exact (congrArg₂ (IntOp.cmpi .eq) hA hB).trans (cmpi_eq_ofBool _ _)

/-- The negative mask at (p, j): the labels differ. -/
theorem pay7_apply (v22 : Vec Ideal S128x1 .i32) (v24 : Vec Ideal S1x4096 .i32) (p : Fin 128) (j : Fin 4096) :
    Gen.k0_pay7 (F := Ideal) v22 v24 (ix2 p j)
      = BitVec.ofBool (!decide (v22 (ix2 p (0 : Fin 1)) = v24 (ix2 (0 : Fin 1) j))) := by
  unfold Gen.k0_pay7
  show IntOp.xori (Gen.k0_pay5 (F := Ideal) v22 v24 (ix2 p j)) 1#1 = _
  rw [pay5_apply, xori_ofBool_one]

/-- The positive mask at (p, j), at the grid coordinate i: the labels agree and j is not row 128·i + p. -/
theorem pay6_apply (i : grid0.Coords) (v22 : Vec Ideal S128x1 .i32) (v24 : Vec Ideal S1x4096 .i32) (p : Fin 128) (j : Fin 4096) :
    Gen.k0_pay6 (F := Ideal) i v22 v24 (ix2 p j)
      = BitVec.ofBool (decide (v22 (ix2 p (0 : Fin 1)) = v24 (ix2 (0 : Fin 1) j)) && !decide (128 * (i 0).val + p.val = j.val)) := by
  have hn : (i 0).val < 32 := (i 0).isLt
  have hA : broadcastTo S128x4096 (addi (broadcast S128x1 (Scalar.muli (BitVec.ofNat 32 (i 0).val) 128#32))
        (iota .tc S128x1 32 [0] Gen.iota_S128x1_d0_w32)) Gen.broadcasts_S128x1_S128x4096 (ix2 p j)
      = IntOp.addi (Scalar.muli (BitVec.ofNat 32 (i 0).val) 128#32) (BitVec.ofNat 32 p.val) := by
    refine (broadcastTo_col_apply _ _ p j).trans ?_
    show IntOp.addi _ (iota .tc S128x1 32 [0] Gen.iota_S128x1_d0_w32 (ix2 p (0 : Fin 1))) = _
    rw [iota_single_apply]
    rfl
  have hB : broadcastTo S128x4096 (iota .tc S1x4096 32 [1] Gen.iota_S1x4096_d1_w32) Gen.broadcasts_S1x4096_S128x4096 (ix2 p j)
      = BitVec.ofNat 32 j.val := by
    refine (broadcastTo_1b_ab_apply _ _ p j).trans ?_
    rw [iota_single_apply]
  unfold Gen.k0_pay6
  show IntOp.andi (Gen.k0_pay5 (F := Ideal) v22 v24 (ix2 p j))
    (IntOp.xori (IntOp.cmpi .eq
      (broadcastTo S128x4096 (addi (broadcast S128x1 (Scalar.muli (BitVec.ofNat 32 (i 0).val) 128#32))
        (iota .tc S128x1 32 [0] Gen.iota_S128x1_d0_w32)) Gen.broadcasts_S128x1_S128x4096 (ix2 p j))
      (broadcastTo S128x4096 (iota .tc S1x4096 32 [1] Gen.iota_S1x4096_d1_w32) Gen.broadcasts_S1x4096_S128x4096 (ix2 p j))) 1#1) = _
  rw [hA, hB, pay5_apply, eye_bit _ _ _ hn p.isLt j.isLt, xori_ofBool_one, andi_ofBool]

/-! ## The reduction payloads at a row -/

/-- The farthest-positive column at row p: the maximum of the masked distances along the row, from −∞'s word. -/
theorem pay1_apply (v40 : FVec Ideal S128x4096 .f32) (p : Fin 128) (u : Fin 1) :
    Gen.k0_pay1 (F := Ideal) v40 (ix2 p u)
      = (Finset.univ : Finset (Fin 4096)).fold max (Ideal.ofBits .f32 0xFF800000#32) (fun j => v40 (ix2 p j)) := by
  unfold Gen.k0_pay1
  refine (shapeCast_col_apply _ Gen.shapeCasts_S128_S128x1 p u).trans ?_
  exact rowMax_apply v40 Gen.reduces_S128x4096_S128 (.inl rfl) rfl p

/-- The nearest-negative column at row p: the minimum along the row of the distances where the mask is set and
    of the stand-in elsewhere, from +∞'s word. -/
theorem pay2_apply (v21 : FVec Ideal S128x4096 .f32) (v38 : IVec S128x4096 1) (p : Fin 128) (u : Fin 1) :
    Gen.k0_pay2 (F := Ideal) v21 v38 (ix2 p u)
      = (Finset.univ : Finset (Fin 4096)).fold min (Ideal.ofBits .f32 0x7F800000#32)
          (fun j => Scalar.select (v38 (ix2 p j)) (v21 (ix2 p j)) (Ideal.ofBits .f32 0x7149F2CA#32)) := by
  unfold Gen.k0_pay2
  refine (shapeCast_col_apply _ Gen.shapeCasts_S128_S128x1 p u).trans ?_
  exact rowMin_apply _ Gen.reduces_S128x4096_S128 (.inl rfl) rfl p

/-- The maximum over a row of 1 where a bit is set and 0 elsewhere, from −∞, is above 0 exactly when some bit is set. -/
theorem any_fold {n : ℕ} (c : Fin n → BitVec 1) :
    Ideal.cmp .ogt ((Finset.univ : Finset (Fin n)).fold max (Ideal.ofBits .f32 0xFF800000#32)
        (fun j => Scalar.select (c j) (Ideal.ofBits .f32 0x3F800000#32) (Ideal.ofBits .f32 0x00000000#32)))
      (Ideal.ofBits .f32 0x00000000#32) = BitVec.ofBool (decide (∃ j, c j = 1#1)) := by
  rw [negInf_eq, one_eq, Ideal.ofBits_zero_f32]
  show BitVec.ofBool (decide ((0 : EReal) < _)) = _
  refine congrArg BitVec.ofBool (decide_eq_decide.mpr ?_)
  rw [Finset.lt_fold_max]
  constructor
  · rintro (h | ⟨j, _, h⟩)
    · exact absurd h not_lt_bot
    · refine ⟨j, ?_⟩
      by_contra hc
      rw [eq_zero_of_ne_one hc, select_zero] at h
      exact lt_irrefl _ h
  · rintro ⟨j, hj⟩
    refine Or.inr ⟨j, Finset.mem_univ _, ?_⟩
    rw [hj, select_one]
    exact zero_lt_one

/-- A comparison of two vectors at an index compares the elements, as extended reals. -/
theorem cmpf_ogt_apply {s : Shape} (a b : FVec Ideal s .f32) (i : s.Idx) :
    cmpf .ogt a b i = Ideal.cmp .ogt (a i) (b i) := rfl

/-- The "some bit of row p is set" flag, as the kernel computes it. -/
theorem anyCol_apply (m : IVec S128x4096 1) (p : Fin 128) (u : Fin 1) :
    shapeCast S128x1 (cmpf .ogt
        (multiReduction .maximumf [1] S128
          (select m (broadcast S128x4096 (Scalar.ofBits (F := Ideal) .f32 0x3F800000#32))
            (broadcast S128x4096 (Scalar.ofBits (F := Ideal) .f32 0x00000000#32)))
          0xFF800000#32 Gen.reduces_S128x4096_S128 (.inl rfl) rfl)
        (broadcast S128 (Scalar.ofBits (F := Ideal) .f32 0x00000000#32))) Gen.shapeCasts_S128_S128x1 (ix2 p u)
      = BitVec.ofBool (decide (∃ j : Fin 4096, m (ix2 p j) = 1#1)) := by
  have hR := rowMax_apply
    (select m (broadcast S128x4096 (Scalar.ofBits (F := Ideal) .f32 0x3F800000#32))
      (broadcast S128x4096 (Scalar.ofBits (F := Ideal) .f32 0x00000000#32)))
    Gen.reduces_S128x4096_S128 (.inl rfl) rfl p
  refine (shapeCast_col_apply _ Gen.shapeCasts_S128_S128x1 p u).trans ?_
  refine (cmpf_ogt_apply _ _ (ix1 p)).trans ?_
  refine Eq.trans (congrArg (fun t => Ideal.cmp .ogt t (Ideal.ofBits .f32 0x00000000#32)) hR) ?_
  exact any_fold fun j => m (ix2 p j)

/-- The conjunction of two flags, widened to a word and converted: 1 or 0. -/
theorem flag_ofBool (a b : Bool) :
    FloatOps.sitofp (F := Ideal) .f32 ((IntOp.andi (BitVec.ofBool a) (BitVec.ofBool b)).setWidth 32)
      = if (a && b) then (1 : EReal) else 0 := by
  rw [andi_ofBool]
  cases (a && b)
  · show (((BitVec.setWidth 32 (BitVec.ofBool false)).toInt : ℝ) : EReal) = _
    have h0 : (BitVec.setWidth 32 (BitVec.ofBool false)).toInt = 0 := by decide
    rw [h0]; simp
  · show (((BitVec.setWidth 32 (BitVec.ofBool true)).toInt : ℝ) : EReal) = _
    have h1 : (BitVec.setWidth 32 (BitVec.ofBool true)).toInt = 1 := by decide
    rw [h1]; simp

/-- The validity column at row p: 1 when both masks have a set bit in the row, else 0. -/
theorem pay3_apply (v37 v38 : IVec S128x4096 1) (p : Fin 128) (u : Fin 1) :
    Gen.k0_pay3 (F := Ideal) v37 v38 (ix2 p u)
      = if (decide (∃ j : Fin 4096, v37 (ix2 p j) = 1#1) && decide (∃ j : Fin 4096, v38 (ix2 p j) = 1#1))
          then (1 : EReal) else 0 := by
  unfold Gen.k0_pay3
  refine Eq.trans ?_ (flag_ofBool _ _)
  refine Eq.trans ?_ (congrArg₂ (fun a b => FloatOps.sitofp (F := Ideal) .f32 ((IntOp.andi a b).setWidth 32))
    (anyCol_apply v37 p u) (anyCol_apply v38 p u))
  rfl

/-! ## The three columns against the specification -/

section Spec
variable (x : SX.Idx → EReal) (lab : SLab.Idx → BitVec 32)

/-- The distance payload on loads that hold rows 128·n … 128·n + 127 and the whole matrix: the specification's distance. -/
theorem pay4_eq_dist (n : ℕ) (hn : n < 32) (v1 : Vec Ideal S128x256 .f32) (v2 : Vec Ideal S4096x256 .f32)
    (h1 : ∀ (p : Fin 128) (k : Fin 256), v1 (ix2 p k) = x (ix2 ⟨128 * n + p.val, by omega⟩ k))
    (h2 : ∀ (j : Fin 4096) (k : Fin 256), v2 (ix2 j k) = x (ix2 j k)) (p : Fin 128) (j : Fin 4096) :
    Gen.k0_pay4 (F := Ideal) v1 v2 (ix2 p j) = dist x ⟨128 * n + p.val, by omega⟩ j := by
  rw [pay4_apply]
  simp only [h1, h2]
  rfl

/-- The positive mask's bit is the specification's "j is a positive of row r". -/
theorem posBit_eq (r j : Fin 4096) (m : ℕ) (hm : r.val = m) :
    (decide (lab (ix1 r) = lab (ix1 j)) && !decide (m = j.val)) = pos lab r j := by
  unfold pos same
  refine congrArg (fun b => decide (lab (ix1 r) = lab (ix1 j)) && !b) (decide_eq_decide.mpr ?_)
  exact ⟨fun h => Fin.ext (hm.trans h), fun h => hm.symm.trans (congrArg Fin.val h)⟩

/-- The farthest-positive column against the specification, at the grid coordinate i with first component n. -/
theorem pay_pos_at (i : grid0.Coords) (n : ℕ) (hn : n < 32) (hi : (i 0).val = n)
    (v1 : Vec Ideal S128x256 .f32) (v2 : Vec Ideal S4096x256 .f32) (v22 : Vec Ideal S128x1 .i32) (v24 : Vec Ideal S1x4096 .i32)
    (h1 : ∀ (p : Fin 128) (k : Fin 256), v1 (ix2 p k) = x (ix2 ⟨128 * n + p.val, by omega⟩ k))
    (h2 : ∀ (j : Fin 4096) (k : Fin 256), v2 (ix2 j k) = x (ix2 j k))
    (h22 : ∀ p : Fin 128, v22 (ix2 p (0 : Fin 1)) = lab (ix1 ⟨128 * n + p.val, by omega⟩))
    (h24 : ∀ j : Fin 4096, v24 (ix2 (0 : Fin 1) j) = lab (ix1 j)) (p : Fin 128) (u : Fin 1) :
    Gen.k0_pay1 (F := Ideal) (Gen.k0_pay8 (F := Ideal) i v1 v2 v22 v24) (ix2 p u)
      = hardPos x lab ⟨128 * n + p.val, by omega⟩ := by
  rw [pay1_apply]
  unfold hardPos
  refine congrArg (fun f => (Finset.univ : Finset (Fin 4096)).fold max (Ideal.ofBits .f32 0xFF800000#32) f)
    (funext fun j => ?_)
  show Scalar.select (Gen.k0_pay6 (F := Ideal) i v22 v24 (ix2 p j)) (Gen.k0_pay4 (F := Ideal) v1 v2 (ix2 p j))
    (Ideal.ofBits .f32 0xF149F2CA#32) = _
  rw [pay6_apply, select_ofBool, pay4_eq_dist x n hn v1 v2 h1 h2, hi, h22, h24,
    posBit_eq lab ⟨128 * n + p.val, by omega⟩ j (128 * n + p.val) rfl]
  rfl

/-- The negative mask's bit is the specification's "j is a negative of row r". -/
theorem negBit_eq (r j : Fin 4096) : (!decide (lab (ix1 r) = lab (ix1 j))) = neg lab r j := rfl

/-- The nearest-negative column against the specification. -/
theorem pay_neg_at (n : ℕ) (hn : n < 32)
    (v1 : Vec Ideal S128x256 .f32) (v2 : Vec Ideal S4096x256 .f32) (v22 : Vec Ideal S128x1 .i32) (v24 : Vec Ideal S1x4096 .i32)
    (h1 : ∀ (p : Fin 128) (k : Fin 256), v1 (ix2 p k) = x (ix2 ⟨128 * n + p.val, by omega⟩ k))
    (h2 : ∀ (j : Fin 4096) (k : Fin 256), v2 (ix2 j k) = x (ix2 j k))
    (h22 : ∀ p : Fin 128, v22 (ix2 p (0 : Fin 1)) = lab (ix1 ⟨128 * n + p.val, by omega⟩))
    (h24 : ∀ j : Fin 4096, v24 (ix2 (0 : Fin 1) j) = lab (ix1 j)) (p : Fin 128) (u : Fin 1) :
    Gen.k0_pay2 (F := Ideal) (Gen.k0_pay4 (F := Ideal) v1 v2) (Gen.k0_pay7 (F := Ideal) v22 v24) (ix2 p u)
      = hardNeg x lab ⟨128 * n + p.val, by omega⟩ := by
  rw [pay2_apply]
  unfold hardNeg
  refine congrArg (fun f => (Finset.univ : Finset (Fin 4096)).fold min (Ideal.ofBits .f32 0x7F800000#32) f)
    (funext fun j => ?_)
  rw [pay7_apply, select_ofBool, pay4_eq_dist x n hn v1 v2 h1 h2, h22, h24, negBit_eq]
  rfl

/-- The validity column against the specification. -/
theorem pay_val_at (i : grid0.Coords) (n : ℕ) (hn : n < 32) (hi : (i 0).val = n)
    (v22 : Vec Ideal S128x1 .i32) (v24 : Vec Ideal S1x4096 .i32)
    (h22 : ∀ p : Fin 128, v22 (ix2 p (0 : Fin 1)) = lab (ix1 ⟨128 * n + p.val, by omega⟩))
    (h24 : ∀ j : Fin 4096, v24 (ix2 (0 : Fin 1) j) = lab (ix1 j)) (p : Fin 128) (u : Fin 1) :
    Gen.k0_pay3 (F := Ideal) (Gen.k0_pay6 (F := Ideal) i v22 v24) (Gen.k0_pay7 (F := Ideal) v22 v24) (ix2 p u)
      = if valid lab ⟨128 * n + p.val, by omega⟩ then (1 : EReal) else 0 := by
  rw [pay3_apply]
  unfold valid
  have hP : ∀ j : Fin 4096, (Gen.k0_pay6 (F := Ideal) i v22 v24 (ix2 p j) = 1#1) ↔ (pos lab ⟨128 * n + p.val, by omega⟩ j = true) := by
    intro j
    rw [pay6_apply, hi, h22, h24, posBit_eq lab ⟨128 * n + p.val, by omega⟩ j (128 * n + p.val) rfl]
    exact ofBool_eq_one _
  have hN : ∀ j : Fin 4096, (Gen.k0_pay7 (F := Ideal) v22 v24 (ix2 p j) = 1#1) ↔ (neg lab ⟨128 * n + p.val, by omega⟩ j = true) := by
    intro j
    rw [pay7_apply, h22, h24, negBit_eq]
    exact ofBool_eq_one _
  refine congrArg (fun b : Bool => if b then (1 : EReal) else 0) ?_
  exact congrArg₂ (· && ·) (decide_eq_decide.mpr (exists_congr hP)) (decide_eq_decide.mpr (exists_congr hN))

/-! ## At a grid point -/

/-- The grid's one coordinate at point t is t. -/
theorem coords_val (t : Fin 32) : ((grid0.coords t) 0).val = t.val := by
  show t.val / grid0.stride 0 % 32 = t.val
  have hs : grid0.stride 0 = 1 := by decide
  rw [hs, Nat.div_one, Nat.mod_eq_of_lt t.isLt]

variable (t : Fin 32) (v1 : Vec Ideal S128x256 .f32) (v2 : Vec Ideal S4096x256 .f32)
  (v22 : Vec Ideal S128x1 .i32) (v24 : Vec Ideal S1x4096 .i32)

/-- The farthest-positive column the body stores at grid point t, at row p: the specification's at row 128·t + p. -/
theorem pay_pos
    (h1 : ∀ (p : Fin 128) (k : Fin 256), v1 (ix2 p k) = x (ix2 ⟨128 * t.val + p.val, by omega⟩ k))
    (h2 : ∀ (j : Fin 4096) (k : Fin 256), v2 (ix2 j k) = x (ix2 j k))
    (h22 : ∀ p : Fin 128, v22 (ix2 p 0) = lab (ix1 ⟨128 * t.val + p.val, by omega⟩))
    (h24 : ∀ j : Fin 4096, v24 (ix2 0 j) = lab (ix1 j)) (p : Fin 128) :
    Gen.k0_pay1 (Gen.k0_pay8 (grid0.coords t) v1 v2 v22 v24) (ix2 p 0)
      = hardPos x lab ⟨128 * t.val + p.val, by omega⟩ :=
  pay_pos_at x lab (grid0.coords t) t.val t.isLt (coords_val t) v1 v2 v22 v24 h1 h2 h22 h24 p 0

/-- The nearest-negative column the body stores at grid point t, at row p. -/
theorem pay_neg
    (h1 : ∀ (p : Fin 128) (k : Fin 256), v1 (ix2 p k) = x (ix2 ⟨128 * t.val + p.val, by omega⟩ k))
    (h2 : ∀ (j : Fin 4096) (k : Fin 256), v2 (ix2 j k) = x (ix2 j k))
    (h22 : ∀ p : Fin 128, v22 (ix2 p 0) = lab (ix1 ⟨128 * t.val + p.val, by omega⟩))
    (h24 : ∀ j : Fin 4096, v24 (ix2 0 j) = lab (ix1 j)) (p : Fin 128) :
    Gen.k0_pay2 (Gen.k0_pay4 v1 v2) (Gen.k0_pay7 (F := Ideal) v22 v24) (ix2 p 0)
      = hardNeg x lab ⟨128 * t.val + p.val, by omega⟩ :=
  pay_neg_at x lab t.val t.isLt v1 v2 v22 v24 h1 h2 h22 h24 p 0

/-- The validity column the body stores at grid point t, at row p. -/
theorem pay_val
    (h22 : ∀ p : Fin 128, v22 (ix2 p 0) = lab (ix1 ⟨128 * t.val + p.val, by omega⟩))
    (h24 : ∀ j : Fin 4096, v24 (ix2 0 j) = lab (ix1 j)) (p : Fin 128) :
    Gen.k0_pay3 (F := Ideal) (Gen.k0_pay6 (F := Ideal) (grid0.coords t) v22 v24) (Gen.k0_pay7 (F := Ideal) v22 v24) (ix2 p 0)
      = if valid lab ⟨128 * t.val + p.val, by omega⟩ then (1 : EReal) else 0 :=
  pay_val_at lab (grid0.coords t) t.val t.isLt (coords_val t) v22 v24 h22 h24 p 0

end Spec

end Cert.Triplet.Pay

end
-- ==== Proof.KTail.lean ====
/-
  What the host operations after the region compute, at the exact (extended real) instance.

  The region leaves, per row i, a i (the farthest positive's distance), b i (the nearest negative's) and
  v i (1 where the row is valid, else 0). The operations after it form the rows' losses
  max ((a i − b i) + margin) 0, the count 0 + Σ_i v i, the total 0 + Σ_i v i · loss i, and return
  total / max count 1 where count > 0, else 0.

  With v i the 0/1 indicator of validity: Σ_i v i is the number of valid rows (a sum of 0/1s is a cardinality);
  1 · r = r and 0 · r = 0 for every extended real r, so Σ_i v i · loss i is the sum of the valid rows' losses;
  a natural number n, as an extended real, exceeds 0 exactly when 0 < n, and max n 1 is the natural max.
  So the result is the mean of the valid rows' losses, 0 when no row is valid.
  The margin stays the word both sides carry; only the words of 0 and 1 are evaluated.
-/
import proofs.«125580_j86758339379639_1_alg».proof.Proof.KTailDef
import proofs.«125580_j86758339379639_1_alg».proof.Proof.Spec
import Idealize.ShloMosaic.Lib.IdealHost
import Idealize.ShloMosaic.PureOps.Ideal.Laws
import Idealize.ShloMosaic.Lib.ValueIdx

noncomputable section

open scoped BigOperators

namespace Cert.Triplet.Tail

open Idealize.ShloMosaic Idealize.ShloMosaic.ValueIdx
open Cert.KernelIdeal Cert.KernelIdeal.Facts₀

/-! ## Extended real arithmetic of 0/1 weights and of natural numbers -/

/-- A sum of 0/1 indicators over extended reals is the number of indices where the indicator is 1. -/
theorem sum_indicator {n : ℕ} (p : Fin n → Bool) :
    (∑ i : Fin n, (if p i then (1 : EReal) else 0))
      = ((((Finset.univ.filter fun i : Fin n => p i = true).card : ℕ) : ℝ) : EReal) := by
  rw [EReal.coe_natCast, Finset.sum_boole]

/-- A 0/1 weight times any extended real: the value where the weight is 1, else 0. -/
theorem indicator_mul (c : Bool) (r : EReal) : (if c then (1 : EReal) else 0) * r = if c then r else 0 := by
  cases c <;> simp

/-- The larger of a natural number (as an extended real) and one. -/
theorem natCast_max_one (n : ℕ) : max (((n : ℝ) : EReal)) 1 = (((max n 1 : ℕ) : ℝ) : EReal) := by
  rw [show (1 : EReal) = ((1 : ℝ) : EReal) from rfl, ← EReal.coe_strictMono.monotone.map_max, Nat.cast_max,
    Nat.cast_one]

/-- The comparison bit "greater than zero" of a natural number as an extended real. -/
theorem cmp_ogt_natCast (n : ℕ) : Ideal.cmp .ogt (((n : ℝ) : EReal)) 0 = if 0 < n then 1#1 else 0#1 := by
  unfold Ideal.cmp
  by_cases h : 0 < n
  · simp [h]
  · have : n = 0 := by omega
    subst this; simp

/-- A sum over the indices of a one-column array is the sum over its rows. -/
theorem sum_column {M : Type*} [AddCommMonoid M] (f : S4096x1.Idx → M) :
    ∑ i : S4096x1.Idx, f i = ∑ r : Fin 4096, f (ix2 r 0) := by
  rw [sum_idx2]
  exact Finset.sum_congr rfl fun r _ => Fintype.sum_unique _

/-! ## The operations after the region, read at the one index of the scalar result -/

/-- The composed host operations at the result's index: both reductions are the zero word plus the sum over every
index, the broadcast scalars read the scalar, and every other operation acts element by element. -/
theorem tailFn_apply (a b v : FVec Ideal S4096x1 .f32) (j : S_.Idx) :
    tailFn (F := Ideal) a b v j =
      Scalar.select
        (Ideal.cmp .ogt (Ideal.ofBits .f32 0x00000000#32 + ∑ i : S4096x1.Idx, v i) (Ideal.ofBits .f32 0x00000000#32))
        (Ideal.div
          (Ideal.ofBits .f32 0x00000000#32 + ∑ i : S4096x1.Idx,
            v i * max ((a i - b i) + Ideal.ofBits .f32 0x3E99999A#32) (Ideal.ofBits .f32 0x00000000#32))
          (max (Ideal.ofBits .f32 0x00000000#32 + ∑ i : S4096x1.Idx, v i) (Ideal.ofBits .f32 0x3F800000#32)))
        (Ideal.ofBits .f32 0x00000000#32) := by
  unfold tailFn
  simp only [select_apply, cmpf_apply, hostDivf_apply, maximumf_apply, constant_apply, hostReduceAdd_apply,
    Ideal.cmpf_def]
  rw [Ideal.hostReduceAdd_total _ (fun b => b.elim0), Ideal.hostReduceAdd_total _ (fun b => b.elim0)]
  rfl

/-! ## The result -/

/-- With the three arrays the region leaves (the farthest positive's distance, the nearest negative's, validity as
0 or 1), the operations after the region return the mean of the valid rows' losses, 0 when no row is valid. -/
theorem tailFn_eq (x : Cert.Triplet.SX.Idx → EReal) (lab : Cert.Triplet.SLab.Idx → BitVec 32)
    (a b v : FVec Ideal Cert.KernelIdeal.S4096x1 .f32)
    (ha : ∀ i : Fin 4096, a (ix2 i 0) = Cert.Triplet.hardPos x lab i)
    (hb : ∀ i : Fin 4096, b (ix2 i 0) = Cert.Triplet.hardNeg x lab i)
    (hv : ∀ i : Fin 4096, v (ix2 i 0) = if Cert.Triplet.valid lab i then (1 : EReal) else 0) :
    Cert.KernelIdeal.tailFn (F := Ideal) a b v = fun _ => Cert.Triplet.loss x lab := by
  funext j
  have hcnt : ∑ i : S4096x1.Idx, v i = (((Cert.Triplet.count lab : ℕ) : ℝ) : EReal) := by
    rw [sum_column, Finset.sum_congr rfl fun i _ => hv i]
    exact sum_indicator fun i => Cert.Triplet.valid lab i
  have htot : ∑ i : S4096x1.Idx,
      v i * max ((a i - b i) + Ideal.ofBits .f32 0x3E99999A#32) (Ideal.ofBits .f32 0x00000000#32)
        = Cert.Triplet.total x lab := by
    rw [sum_column]
    unfold Cert.Triplet.total
    refine Finset.sum_congr rfl fun i _ => ?_
    rw [hv i, ha i, hb i, indicator_mul, Ideal.ofBits_zero_f32]
    rfl
  rw [tailFn_apply, hcnt, htot, Ideal.ofBits_zero_f32, Ideal.ofBits_one_f32, zero_add, zero_add, natCast_max_one,
    cmp_ogt_natCast]
  unfold Cert.Triplet.loss
  by_cases h : 0 < Cert.Triplet.count lab
  · rw [if_pos h, if_pos h, select_one]
  · rw [if_neg h, if_neg h, select_zero]

end Cert.Triplet.Tail

end
-- ==== Proof.KValue.lean ====
/-
  The kernel's value: after the run each of the region's three result arrays is the specification's array of the
  ARGUMENTS — per row the farthest positive's distance, the nearest negative's, and 1 or 0 as the row is valid —, and
  so the scalar the host operations after the region compute is the specification's loss.

  Each result array is written back in 32 blocks of 128 rows that tile it; what point t writes back is the body's
  store, whose arithmetic at row p is the specification's at row 128·t + p of what the four loads read: the features'
  block (rows 128·t …), the whole feature matrix, and the labels through their two reshapes (a column, a row),
  neither of which the reshapes change entry by entry.
-/
import proofs.«125580_j86758339379639_1_alg».proof.Proof.KRun
import proofs.«125580_j86758339379639_1_alg».proof.Proof.KBlocks
import proofs.«125580_j86758339379639_1_alg».proof.Proof.KPay
import proofs.«125580_j86758339379639_1_alg».proof.Proof.KTail
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the region reads, as the arguments -/

/-- The grid's one coordinate at point t is t. -/
theorem coords0 (t : Fin cfg0.N) : ((grid0.coords t) 0).val = t.val := by
  show t.val / grid0.stride 0 % 32 = t.val
  have hs : grid0.stride 0 = 1 := by decide
  rw [hs, Nat.div_one, Nat.mod_eq_of_lt (lt32 t)]

/-- The reshapes write neither argument: the feature matrix reaches the region as launched. -/
theorem V_arg0 (c : Dev nD) : V m ρ c main_arg0 = m ((c : Thread nD τ).loc main_arg0) := by
  show StableHlo.after hostOps0 (V₀ m ρ c) (Proc.devRef .tc main_arg0) = _
  after_results

/-- The label column is the label vector, entry by entry. -/
theorem V_col (c : Dev nD) (r : Fin 4096) (u : Fin 1) :
    V m ρ c main_v0 (ix2 r u) = m ((c : Thread nD τ).loc main_arg1) (ix1 r) := by
  have e : (V m ρ c main_v0 : S4096x1.Idx → BitVec 32)
      = shapeCast S4096x1 (m ((c : Thread nD τ).loc main_arg1) : S4096.Idx → BitVec 32) shapeCasts_S4096_S4096x1 := by
    show StableHlo.after hostOps0 (V₀ m ρ c) (Proc.devRef .tc main_v0) = _
    after_results
    rfl
  rw [e]
  exact Cert.Triplet.Pay.shapeCast_col_apply _ _ r u

/-- A vector cast to a row reads, at (u, j), the vector at j. -/
theorem shapeCast_row_apply {α : Type} {a : ℕ} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

/-- The label row is the label vector, entry by entry. -/
theorem V_row (c : Dev nD) (u : Fin 1) (j : Fin 4096) :
    V m ρ c main_v1 (ix2 u j) = m ((c : Thread nD τ).loc main_arg1) (ix1 j) := by
  have e : (V m ρ c main_v1 : S1x4096.Idx → BitVec 32)
      = shapeCast S1x4096 (m ((c : Thread nD τ).loc main_arg1) : S4096.Idx → BitVec 32) shapeCasts_S4096_S1x4096 := by
    show StableHlo.after hostOps0 (V₀ m ρ c) (Proc.devRef .tc main_v1) = _
    after_results
    rfl
  rw [e]
  exact shapeCast_row_apply _ _ u j

/-! ## The three result arrays after the run, as functions of the arguments -/

open Cert.Triplet

/-- The arguments, as the specification reads them. -/
abbrev xArg (c : Dev nD) : SX.Idx → EReal := m ((c : Thread nD τ).loc main_arg0)
abbrev labArg (c : Dev nD) : SLab.Idx → BitVec 32 := m ((c : Thread nD τ).loc main_arg1)

/-- The farthest-positive distances, the nearest-negative distances and the validity flags as 4096×1 arrays. -/
def GPos (x : SX.Idx → EReal) (lab : SLab.Idx → BitVec 32) : S4096x1.Idx → EReal := fun i => hardPos x lab ⟨(i 0).val, idx2_lt0 i⟩
def GNeg (x : SX.Idx → EReal) (lab : SLab.Idx → BitVec 32) : S4096x1.Idx → EReal := fun i => hardNeg x lab ⟨(i 0).val, idx2_lt0 i⟩
def GVal (lab : SLab.Idx → BitVec 32) : S4096x1.Idx → EReal := fun i => if valid lab ⟨(i 0).val, idx2_lt0 i⟩ then (1 : EReal) else 0

theorem hz : (![0, 0] : Fin 2 → Nat) = fun _ => 0 := funext fun a => by fin_cases a <;> rfl

/-- What the four loads read at point t, against the arguments. -/
theorem rd_rows (c : Dev nD) (t : Fin cfg0.N) (p : Fin 128) (k : Fin 256) :
    iblk m ρ c 0 t (ix2 p k) = xArg m c (ix2 (⟨128 * t.val + p.val, by have := lt32 t; omega⟩ : Fin 4096) k) :=
  (blk_rows m ρ c t p k).trans (congrFun (V_arg0 m ρ c) _)
theorem rd_all (c : Dev nD) (t : Fin cfg0.N) (j : Fin 4096) (k : Fin 256) : iblk m ρ c 1 t (ix2 j k) = xArg m c (ix2 j k) :=
  (blk_all m ρ c t j k).trans (congrFun (V_arg0 m ρ c) _)
theorem rd_col (c : Dev nD) (t : Fin cfg0.N) (p : Fin 128) :
    iblk m ρ c 2 t (ix2 p (0 : Fin 1)) = labArg m c (ix1 (⟨128 * t.val + p.val, by have := lt32 t; omega⟩ : Fin 4096)) :=
  (blk_col m ρ c t p).trans (V_col m ρ c _ 0)
theorem rd_row (c : Dev nD) (t : Fin cfg0.N) (j : Fin 4096) : iblk m ρ c 3 t (ix2 (0 : Fin 1) j) = labArg m c (ix1 j) :=
  (blk_row m ρ c t j).trans (V_row m ρ c 0 j)

/-- An entry of a result block at point t is the entry 128·t + p of its array. -/
theorem emb_row4 (t : Fin cfg0.N) (p : Fin 128) (u : Fin 1) : ((((cfg0.win 4).blk t).view.emb (ix2 p u)) 0).val = 128 * t.val + p.val := by
  obtain ⟨-, -, -, -, -, -, -, -, e0, -⟩ := idx_facts t
  show win0_4.index t (0 : Fin 2) * 128 + 1 * p.val = _; omega
theorem emb_row5 (t : Fin cfg0.N) (p : Fin 128) (u : Fin 1) : ((((cfg0.win 5).blk t).view.emb (ix2 p u)) 0).val = 128 * t.val + p.val := by
  obtain ⟨-, -, -, -, -, -, -, -, -, -, e0, -⟩ := idx_facts t
  show win0_5.index t (0 : Fin 2) * 128 + 1 * p.val = _; omega
theorem emb_row6 (t : Fin cfg0.N) (p : Fin 128) (u : Fin 1) : ((((cfg0.win 6).blk t).view.emb (ix2 p u)) 0).val = 128 * t.val + p.val := by
  obtain ⟨-, -, -, -, -, -, -, -, -, -, -, -, e0, -⟩ := idx_facts t
  show win0_6.index t (0 : Fin 2) * 128 + 1 * p.val = _; omega

/-- WHAT POINT t WRITES BACK is block t of the specification's array. -/
theorem flushedPos_eq (c : Dev nD) (t : Fin cfg0.N) :
    (dats m ρ 0 c).flushed 4 t = ((cfg0.win 4).blk t).view.read (Elt Ideal) (GPos (xArg m c) (labArg m c)) := by
  show (cfg0.win 4).cut (grid0.coords t) ((dats m ρ 0 c).after 4 t) = _
  rw [after0_4]
  unfold outPos
  rw [View.canon_unit_zero hz]
  simp only [View.ld_unit_zero (S := S128x256) hz, View.ld_unit_zero (S := S4096x256) hz, View.ld_unit_zero (S := S128x1) hz,
    View.ld_unit_zero (S := S1x4096) hz]
  funext j
  obtain ⟨p, u, rfl⟩ : ∃ (p : Fin 128) (u : Fin 1), j = ix2 p u := ⟨j 0, j 1, eq_ix2 j⟩
  show k0_pay1 (F := Ideal) (k0_pay8 (F := Ideal) (grid0.coords t) (iblk m ρ c 0 t) (iblk m ρ c 1 t) (iblk m ρ c 2 t) (iblk m ρ c 3 t)) (ix2 p u)
    = GPos (xArg m c) (labArg m c) (((cfg0.win 4).blk t).view.emb (ix2 p u))
  refine (Cert.Triplet.Pay.pay_pos_at (xArg m c) (labArg m c) (grid0.coords t) t.val (lt32 t) (coords0 t)
    (iblk m ρ c 0 t) (iblk m ρ c 1 t) (iblk m ρ c 2 t) (iblk m ρ c 3 t)
    (rd_rows m ρ c t) (rd_all m ρ c t) (rd_col m ρ c t) (rd_row m ρ c t) p u).trans ?_
  unfold GPos
  exact congrArg (hardPos (xArg m c) (labArg m c)) (Fin.ext (emb_row4 t p u).symm)

theorem flushedNeg_eq (c : Dev nD) (t : Fin cfg0.N) :
    (dats m ρ 0 c).flushed 5 t = ((cfg0.win 5).blk t).view.read (Elt Ideal) (GNeg (xArg m c) (labArg m c)) := by
  show (cfg0.win 5).cut (grid0.coords t) ((dats m ρ 0 c).after 5 t) = _
  rw [after0_5]
  unfold outNeg
  rw [View.canon_unit_zero hz]
  simp only [View.ld_unit_zero (S := S128x256) hz, View.ld_unit_zero (S := S4096x256) hz, View.ld_unit_zero (S := S128x1) hz,
    View.ld_unit_zero (S := S1x4096) hz]
  funext j
  obtain ⟨p, u, rfl⟩ : ∃ (p : Fin 128) (u : Fin 1), j = ix2 p u := ⟨j 0, j 1, eq_ix2 j⟩
  show k0_pay2 (F := Ideal) (k0_pay4 (F := Ideal) (iblk m ρ c 0 t) (iblk m ρ c 1 t)) (k0_pay7 (F := Ideal) (iblk m ρ c 2 t) (iblk m ρ c 3 t)) (ix2 p u)
    = GNeg (xArg m c) (labArg m c) (((cfg0.win 5).blk t).view.emb (ix2 p u))
  refine (Cert.Triplet.Pay.pay_neg_at (xArg m c) (labArg m c) t.val (lt32 t)
    (iblk m ρ c 0 t) (iblk m ρ c 1 t) (iblk m ρ c 2 t) (iblk m ρ c 3 t)
    (rd_rows m ρ c t) (rd_all m ρ c t) (rd_col m ρ c t) (rd_row m ρ c t) p u).trans ?_
  unfold GNeg
  exact congrArg (hardNeg (xArg m c) (labArg m c)) (Fin.ext (emb_row5 t p u).symm)

theorem flushedVal_eq (c : Dev nD) (t : Fin cfg0.N) :
    (dats m ρ 0 c).flushed 6 t = ((cfg0.win 6).blk t).view.read (Elt Ideal) (GVal (labArg m c)) := by
  show (cfg0.win 6).cut (grid0.coords t) ((dats m ρ 0 c).after 6 t) = _
  rw [after0_6]
  unfold outVal
  rw [View.canon_unit_zero hz]
  simp only [View.ld_unit_zero (S := S128x1) hz, View.ld_unit_zero (S := S1x4096) hz]
  funext j
  obtain ⟨p, u, rfl⟩ : ∃ (p : Fin 128) (u : Fin 1), j = ix2 p u := ⟨j 0, j 1, eq_ix2 j⟩
  have key : ∀ X : FVec Ideal S128x1 .f32, (cfg0.win 6).cut (grid0.coords t) X (ix2 p u) = X (ix2 p u) := fun X => rfl
  refine (key _).trans ?_
  refine (Cert.Triplet.Pay.pay_val_at (labArg m c) (grid0.coords t) t.val (lt32 t) (coords0 t)
    (iblk m ρ c 2 t) (iblk m ρ c 3 t) (rd_col m ρ c t) (rd_row m ρ c t) p u).trans ?_
  have rd : ∀ G : S4096x1.Idx → EReal, ((cfg0.win 6).blk t).view.read (Elt Ideal) G (ix2 p u) = G (((cfg0.win 6).blk t).view.emb (ix2 p u)) := fun G => rfl
  refine Eq.trans ?_ (rd _).symm
  unfold GVal
  have e : (⟨128 * t.val + p.val, by have := lt32 t; omega⟩ : Fin 4096) = ⟨((((cfg0.win 6).blk t).view.emb (ix2 p u)) 0).val, idx2_lt0 _⟩ :=
    Fin.ext (emb_row6 t p u).symm
  rw [e]

/-! ## The 32 blocks of 128 rows cover each result array -/

theorem cover_rows (i : S4096x1.Idx) : ∃ t : Fin cfg0.N, t.val = (i 0).val / 128 :=
  ⟨⟨(i 0).val / 128, by have := idx2_lt0 i; show (i 0).val / 128 < grid0.N; rw [N_0]; omega⟩, rfl⟩

theorem cover4 (i : S4096x1.Idx) : ∃ t : Fin cfg0.N, (cfg0.win 4).flush t = true ∧ i ∈ ((cfg0.win 4).blk t).view.set := by
  obtain ⟨t, ht⟩ := cover_rows i
  obtain ⟨-, -, -, -, -, -, -, -, e0, e1, -⟩ := idx_facts t
  refine ⟨t, flush0_4 t, ?_⟩
  show i ∈ ((View.whole main_v2_0).slice (win0_4.rect t)).set
  rw [View.set_slice_whole, Rect.mem_set_unit]
  intro a
  have h0 := idx2_lt0 i
  have h1 := idx2_lt1 i
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1 ≤ (i 1).val ∧ (i 1).val < win0_4.index t (1 : Fin 2) * 1 + 1; omega

theorem cover5 (i : S4096x1.Idx) : ∃ t : Fin cfg0.N, (cfg0.win 5).flush t = true ∧ i ∈ ((cfg0.win 5).blk t).view.set := by
  obtain ⟨t, ht⟩ := cover_rows i
  obtain ⟨-, -, -, -, -, -, -, -, -, -, e0, e1, -⟩ := idx_facts t
  refine ⟨t, flush0_5 t, ?_⟩
  show i ∈ ((View.whole main_v2_1).slice (win0_5.rect t)).set
  rw [View.set_slice_whole, Rect.mem_set_unit]
  intro a
  have h0 := idx2_lt0 i
  have h1 := idx2_lt1 i
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1 ≤ (i 1).val ∧ (i 1).val < win0_5.index t (1 : Fin 2) * 1 + 1; omega

theorem cover6 (i : S4096x1.Idx) : ∃ t : Fin cfg0.N, (cfg0.win 6).flush t = true ∧ i ∈ ((cfg0.win 6).blk t).view.set := by
  obtain ⟨t, ht⟩ := cover_rows i
  obtain ⟨-, -, -, -, -, -, -, -, -, -, -, -, e0, e1⟩ := idx_facts t
  refine ⟨t, flush0_6 t, ?_⟩
  show i ∈ ((View.whole main_v2_2).slice (win0_6.rect t)).set
  rw [View.set_slice_whole, Rect.mem_set_unit]
  intro a
  have h0 := idx2_lt0 i
  have h1 := idx2_lt1 i
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1 ≤ (i 1).val ∧ (i 1).val < win0_6.index t (1 : Fin 2) * 1 + 1; omega

/-- THE THREE RESULT ARRAYS after the run are the specification's, of the arguments. -/
theorem finPos_eq (c : Dev nD) : finPos m ρ c = GPos (xArg m c) (labArg m c) :=
  (dats m ρ 0 c).arrAt_eq_of_cover 4 _ (fun t _ => flushedPos_eq m ρ c t) cover4
theorem finNeg_eq (c : Dev nD) : finNeg m ρ c = GNeg (xArg m c) (labArg m c) :=
  (dats m ρ 0 c).arrAt_eq_of_cover 5 _ (fun t _ => flushedNeg_eq m ρ c t) cover5
theorem finVal_eq (c : Dev nD) : finVal m ρ c = GVal (labArg m c) :=
  (dats m ρ 0 c).arrAt_eq_of_cover 6 _ (fun t _ => flushedVal_eq m ρ c t) cover6

/-- So the scalar the host tail computes from them is the specification's loss of the arguments. -/
theorem kernel_result (c : Dev nD) :
    tailFn (F := Ideal) (finPos m ρ c) (finNeg m ρ c) (finVal m ρ c) = fun _ => loss (xArg m c) (labArg m c) := by
  rw [finPos_eq, finNeg_eq, finVal_eq]
  exact Cert.Triplet.Tail.tailFn_eq (xArg m c) (labArg m c) _ _ _
    (fun i => by unfold GPos; exact congrArg _ (Fin.ext rfl))
    (fun i => by unfold GNeg; exact congrArg _ (Fin.ext rfl))
    (fun i => by unfold GVal; rw [show (⟨((ix2 i (0 : Fin 1) : S4096x1.Idx) 0).val, idx2_lt0 _⟩ : Fin 4096) = i from Fin.ext rfl])

end Cert.KernelIdeal.Hand

end
-- ==== Proof.RefValue.lean ====
/-
  The reference program's operations, composed into its last stage, compute the triplet loss of
  the specification, as a function of the feature matrix and the label vector.

  Read one operation at a time, at an index built from row and column coordinates:
  the squared norms are the row sums of squares, the matrix product against the transpose is the
  matrix of inner products, and so the clamped root is the distance of two rows; the label
  comparison and the two coordinate counters give the positive and negative masks; the masked
  maximum from −∞ and minimum from +∞ over a row are the hardest positive and the hardest negative;
  the two or-reductions say whether a row has a positive and a negative. The number of valid rows
  is at most 4096, so the 32-bit sum of the widened bits is that number without wrapping: read
  signed it is the same number, its maximum with one and its comparison with zero are those of
  numbers. The float sum from zero of the selected row losses is their sum, and the last select
  is the case distinction of the mean.
-/
import proofs.«125580_j86758339379639_1_alg».proof.Proof.RefStages
import proofs.«125580_j86758339379639_1_alg».proof.Proof.Spec
import Idealize.ShloMosaic.PureOps.Ideal.Laws
import Idealize.ShloMosaic.Lib.ValueIdx
import Idealize.ShloMosaic.Lib.ValueIdxRank1
import Idealize.ShloMosaic.Lib.WordSum

noncomputable section

open scoped BigOperators

namespace Cert.Triplet.Ref

open Cert.ReferenceIdeal Cert.ReferenceIdeal.Gen Cert.ReferenceIdeal.ReadP Idealize.ShloMosaic
  Idealize.ShloMosaic.ValueIdx

/-! ## One-bit words -/

theorem ofBool_eq_one {b : Bool} : BitVec.ofBool b = 1#1 ↔ b = true := by cases b <;> decide

theorem select_ofBool {α : Type} (b : Bool) (a c : α) :
    Scalar.select (BitVec.ofBool b) a c = if b then a else c := by
  cases b <;> simp [Scalar.select]

theorem not_ofBool (b : Bool) : ~~~(BitVec.ofBool b) = BitVec.ofBool (!b) := by cases b <;> decide

theorem andi_ofBool (a b : Bool) :
    IntOp.andi (BitVec.ofBool a) (BitVec.ofBool b) = BitVec.ofBool (a && b) := by
  cases a <;> cases b <;> decide

theorem ori_ofBool (a b : Bool) :
    IntOp.ori (BitVec.ofBool a) (BitVec.ofBool b) = BitVec.ofBool (a || b) := by
  cases a <;> cases b <;> decide

theorem cmpi_eq_ofBool {w : Nat} (a b : BitVec w) :
    IntOp.cmpi .eq a b = BitVec.ofBool (decide (a = b)) := by
  unfold IntOp.cmpi
  refine congrArg BitVec.ofBool ?_
  by_cases h : a = b <;> simp [h]

/-- An or-fold of one-bit words from the zero word says whether one of them is set. -/
theorem fold_ori_ofBool {ι : Type} (S : Finset ι) (p : ι → Bool) :
    S.fold IntOp.ori 0#1 (fun k => BitVec.ofBool (p k)) = BitVec.ofBool (decide (∃ k ∈ S, p k = true)) := by
  induction S using Finset.cons_induction with
  | empty => simp
  | cons a S ha ih =>
    rw [Finset.fold_cons, ih, ori_ofBool]
    refine congrArg BitVec.ofBool ?_
    rw [Bool.eq_iff_iff]
    simp [Finset.mem_cons]

/-! ## The two iotas compared -/

theorem iota_eq (i j : Fin 4096) :
    IntOp.cmpi .eq (IntOp.addi (BitVec.ofNat 32 i.val) 0#32) (BitVec.ofNat 32 j.val)
      = BitVec.ofBool (decide (i = j)) := by
  rw [cmpi_eq_ofBool]
  refine congrArg BitVec.ofBool ?_
  unfold IntOp.addi
  rw [BitVec.add_zero, Bool.eq_iff_iff, decide_eq_true_iff, decide_eq_true_iff]
  constructor
  · intro h
    have h' := congrArg BitVec.toNat h
    simp only [BitVec.toNat_ofNat] at h'
    have := i.isLt; have := j.isLt
    exact Fin.ext (by omega)
  · rintro rfl; rfl

/-! ## A sum of words -/

theorem fold_addi_eq_sum {ι : Type} (S : Finset ι) (init : BitVec 32) (f : ι → BitVec 32) :
    S.fold IntOp.addi init f = init + ∑ i ∈ S, f i := by
  induction S using Finset.cons_induction with
  | empty => simp
  | cons a S ha ih =>
    rw [Finset.fold_cons, Finset.sum_cons, ih]
    show f a + (init + _) = _
    rw [add_left_comm]

theorem toNat_setWidth_ofBool (b : Bool) : ((BitVec.ofBool b).setWidth 32).toNat = if b then 1 else 0 := by
  cases b <;> rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A small count as a 32-bit word -/

section CountWord
variable {w : BitVec 32} {n : ℕ}

theorem toInt_of_small (h : w.toNat = n) (hn : n ≤ 4096) : w.toInt = (n : ℤ) := by
  rw [BitVec.toInt_eq_toNat_of_lt (by omega), h]

theorem sgt_zero_of_small (h : w.toNat = n) (hn : n ≤ 4096) :
    IntOp.cmpi .sgt w 0#32 = BitVec.ofBool (decide (0 < n)) := by
  unfold IntOp.cmpi
  refine congrArg BitVec.ofBool ?_
  rw [Bool.eq_iff_iff, BitVec.slt_iff_toInt_lt, toInt_of_small h hn, decide_eq_true_iff]
  simp

theorem toInt_maxsi_one_of_small (h : w.toNat = n) (hn : n ≤ 4096) :
    (IntOp.maxsi w 1#32).toInt = ((max n 1 : ℕ) : ℤ) := by
  unfold IntOp.maxsi
  by_cases h1 : (1#32 : BitVec 32).slt w = true
  · rw [if_pos h1, toInt_of_small h hn]
    rw [BitVec.slt_iff_toInt_lt, toInt_of_small h hn] at h1
    have : (1#32 : BitVec 32).toInt = 1 := by decide
    rw [this] at h1
    have : 1 ≤ n := by omega
    rw [max_eq_left this]
  · rw [if_neg h1]
    rw [BitVec.slt_iff_toInt_lt, toInt_of_small h hn] at h1
    have h2 : (1#32 : BitVec 32).toInt = 1 := by decide
    rw [h2] at h1 ⊢
    have : n ≤ 1 := by omega
    rw [max_eq_right this]; rfl

end CountWord

/-! ## The host's reduces read at a row, and to a scalar -/

/-- The shape fact that names the inserted column index. -/
theorem red : (⟨2, ![4096, 4096]⟩ : Shape).Reduces [1] ⟨1, ![4096]⟩ := by decide

theorem lift_row (i k : Fin 4096) : red.lift (ix1 i) k = ix2 i k :=
  funext fun a => Fin.ext (by match a with | ⟨0, _⟩ => rfl | ⟨1, _⟩ => rfl)

/-- A reduce over the columns with a commutative associative body is, at row i, the fold over the row. -/
theorem reduce_row {α : Type} (f : α → α → α) [Std.Commutative f] [Std.Associative f]
    (y : (⟨2, ![4096, 4096]⟩ : Shape).Idx → α) (init : (⟨0, ![]⟩ : Shape).Idx → α)
    (h' : (⟨2, ![4096, 4096]⟩ : Shape).ReducesTo [1] ⟨1, ![4096]⟩) (hu : 0 < (⟨0, ![]⟩ : Shape).numel) (i : Fin 4096) :
    Host.reduce f y init h' hu (ix1 i)
      = (Finset.univ : Finset (Fin 4096)).fold f (init (Shape.Idx.first hu)) (fun k => y (ix2 i k)) := by
  rw [Host.reduce_eq_fold_single f y init h' red hu (ix1 i)]
  have e : (y ∘ red.lift (ix1 i)) = fun k : Fin 4096 => y (ix2 i k) := funext fun k => congrArg y (lift_row i k)
  rw [e]
  rfl

/-- An integer add-reduce of a vector to a scalar is the initial word plus the sum of the words. -/
theorem reduce_add_all (v : (⟨1, ![4096]⟩ : Shape).Idx → BitVec 32) (init : (⟨0, ![]⟩ : Shape).Idx → BitVec 32)
    (h' : (⟨1, ![4096]⟩ : Shape).ReducesTo [0] ⟨0, ![]⟩) (hu : 0 < (⟨0, ![]⟩ : Shape).numel) (j : (⟨0, ![]⟩ : Shape).Idx) :
    Host.reduce IntOp.addi v init h' hu j = init (Shape.Idx.first hu) + ∑ a : Fin 4096, v (ix1 a) := by
  rw [Host.reduce_eq_fold IntOp.addi v init h' hu j,
    Finset.filter_true_of_mem (fun i _ => funext fun b => b.elim0), fold_addi_eq_sum, sum_idx1]

/-! ## The program's stages at an index -/

section Stages

variable (x : (⟨S4096x256, .f32⟩ : BufTy).Contents (Elt Ideal)) (lab : (⟨S4096, .i32⟩ : BufTy).Contents (Elt Ideal))

/-! ### Index bookkeeping: the composed index maps of the layout operations, by coordinates -/

theorem idx_v1 (i : Fin 4096) (k : Fin 256) : idx_main_v1 (ix1 i) k = ix2 i k :=
  funext fun a => Fin.ext (by match a with | ⟨0, _⟩ => rfl | ⟨1, _⟩ => rfl)
theorem idx_v4v2 (i j : Fin 4096) : idx_main_v2 (idx_main_v4 (ix2 i j)) = ix1 i :=
  funext fun a => Fin.ext (by match a with | ⟨0, _⟩ => rfl)
theorem idx_v5v3 (i j : Fin 4096) : idx_main_v3 (idx_main_v5 (ix2 i j)) = ix1 j :=
  funext fun a => Fin.ext (by match a with | ⟨0, _⟩ => rfl)
theorem lidx_v8 (i j : Fin 4096) (k : Fin 256) : lidx_main_v8 (ix2 i j) k = ix2 i k :=
  funext fun a => Fin.ext (by match a with | ⟨0, _⟩ => rfl | ⟨1, _⟩ => rfl)
theorem ridx_v8 (i j : Fin 4096) (k : Fin 256) : idx_main_v7 (ridx_main_v8 (ix2 i j) k) = ix2 j k :=
  funext fun a => Fin.ext (by match a with | ⟨0, _⟩ => rfl | ⟨1, _⟩ => rfl)
theorem idx_v17v15 (i j : Fin 4096) : idx_main_v15 (idx_main_v17 (ix2 i j)) = ix1 i :=
  funext fun a => Fin.ext (by match a with | ⟨0, _⟩ => rfl)
theorem idx_v18v16 (i j : Fin 4096) : idx_main_v16 (idx_main_v18 (ix2 i j)) = ix1 j :=
  funext fun a => Fin.ext (by match a with | ⟨0, _⟩ => rfl)

/-! ### The distance matrix -/

/-- The reduce-add of the squares over the features is the row's squared norm. -/
theorem sqn_at (i : Fin 4096) : val_main_v1 (F := Ideal) x (ix1 i) = sqn x i := by
  rw [val_main_v1_apply]
  simp only [val_main_cst_apply, val_main_v0_apply, idx_v1, Ideal.ofBits_def, Ideal.mulf_def,
    Ideal.ofBits_zero_f32, zero_add]
  rfl

/-- The column broadcast plus the row broadcast of the norms. -/
theorem sqsum_at (i j : Fin 4096) : val_main_v6 (F := Ideal) x (ix2 i j) = sqn x i + sqn x j := by
  rw [val_main_v6_apply, val_main_v4_apply, val_main_v2_apply, val_main_v5_apply, val_main_v3_apply,
    idx_v4v2, idx_v5v3, sqn_at, sqn_at]
  rfl

/-- The product with the transpose is the inner product of two rows. -/
theorem cross_at (i j : Fin 4096) : val_main_v8 (F := Ideal) x (ix2 i j) = cross x i j := by
  rw [val_main_v8_apply]
  simp only [val_main_v7_apply, lidx_v8, ridx_v8]
  rfl

/-- The clamped root of the squared distance. -/
theorem dist_at (i j : Fin 4096) : val_main_v14 (F := Ideal) x (ix2 i j) = dist x i j := by
  rw [val_main_v14_apply, val_main_v13_apply, val_main_v11_apply, val_main_v10_apply, val_main_v12_apply,
    val_main_v9_apply, val_main_cst_0_apply, val_main_cst_1_apply, sqsum_at, cross_at]
  rfl

/-! ### The masks -/

theorem same_at (i j : Fin 4096) : val_main_v19 (F := Ideal) lab (ix2 i j) = BitVec.ofBool (same lab i j) := by
  rw [val_main_v19_apply, val_main_v17_apply, val_main_v15_apply, val_main_v18_apply, val_main_v16_apply,
    idx_v17v15, idx_v18v16, cmpi_eq_ofBool]
  rfl

/-- The two coordinate counters agree exactly on the diagonal. -/
theorem eye_at (i j : Fin 4096) : val_main_v24 (F := Ideal) (ix2 i j) = BitVec.ofBool (decide (i = j)) := by
  rw [val_main_v24_apply, val_main_v23_apply, val_main_v20_apply, val_main_v22_apply, val_main_c_apply,
    val_main_v21_apply]
  exact iota_eq i j

theorem pos_at (i j : Fin 4096) : val_main_v26 (F := Ideal) lab (ix2 i j) = BitVec.ofBool (pos lab i j) := by
  rw [val_main_v26_apply, val_main_v25_apply, same_at, eye_at, not_ofBool, andi_ofBool]
  rfl

theorem neg_at (i j : Fin 4096) : val_main_v27 (F := Ideal) lab (ix2 i j) = BitVec.ofBool (neg lab i j) := by
  rw [val_main_v27_apply, same_at, not_ofBool]
  rfl

/-! ### The masked distances and their row extremes -/

theorem maskedPos_at (i j : Fin 4096) :
    val_main_v28 (F := Ideal) x lab (ix2 i j) = if pos lab i j then dist x i j else negBig := by
  rw [val_main_v28_apply, pos_at, dist_at, val_main_call0_v0_apply, val_main_cst_2_apply, select_ofBool]
  rfl

theorem maskedNeg_at (i j : Fin 4096) :
    val_main_v30 (F := Ideal) x lab (ix2 i j) = if neg lab i j then dist x i j else posBig := by
  rw [val_main_v30_apply, neg_at, dist_at, val_main_call1_v0_apply, val_main_cst_4_apply, select_ofBool]
  rfl

/-- The maximum from −∞ over a row of the masked distances is the hardest positive. -/
theorem hardPos_at (i : Fin 4096) : val_main_v29 (F := Ideal) x lab (ix1 i) = hardPos x lab i := by
  unfold val_main_v29
  rw [reduce_row]
  simp only [maskedPos_at, val_main_cst_3_apply]
  rfl

/-- The minimum from +∞ over a row of the masked distances is the hardest negative. -/
theorem hardNeg_at (i : Fin 4096) : val_main_v31 (F := Ideal) x lab (ix1 i) = hardNeg x lab i := by
  unfold val_main_v31
  rw [reduce_row]
  simp only [maskedNeg_at, val_main_cst_5_apply]
  rfl

/-! ### Which rows count -/

theorem anyPos_at (i : Fin 4096) :
    val_main_v32 (F := Ideal) lab (ix1 i) = BitVec.ofBool (decide (∃ j, pos lab i j = true)) := by
  unfold val_main_v32
  rw [reduce_row]
  simp only [pos_at, val_main_c_6_apply]
  rw [fold_ori_ofBool]
  simp

theorem anyNeg_at (i : Fin 4096) :
    val_main_v33 (F := Ideal) lab (ix1 i) = BitVec.ofBool (decide (∃ j, neg lab i j = true)) := by
  unfold val_main_v33
  rw [reduce_row]
  simp only [neg_at, val_main_c_7_apply]
  rw [fold_ori_ofBool]
  simp

theorem valid_at (i : Fin 4096) : val_main_v34 (F := Ideal) lab (ix1 i) = BitVec.ofBool (valid lab i) := by
  rw [val_main_v34_apply, anyPos_at, anyNeg_at, andi_ofBool, valid]
  refine congrArg BitVec.ofBool ?_
  rw [Bool.eq_iff_iff]
  simp only [Bool.and_eq_true, decide_eq_true_eq]

theorem validWord_at (i : Fin 4096) :
    val_main_v40 (F := Ideal) lab (ix1 i) = (BitVec.ofBool (valid lab i)).setWidth 32 := by
  rw [val_main_v40_apply, valid_at]

/-! ### The count of valid rows, as a word -/

theorem count_le : count lab ≤ 4096 := by
  unfold count
  exact (Finset.card_filter_le _ _).trans (by simp)

/-- The 32-bit sum of the widened valid bits is the number of valid rows: it cannot wrap. -/
theorem count_toNat (j : S_.Idx) : (val_main_v41 (F := Ideal) lab j).toNat = count lab := by
  unfold val_main_v41
  rw [reduce_add_all, val_main_c_10_apply, show (0#32 : BitVec 32) = 0 from rfl, zero_add]
  have hs : ∑ a : Fin 4096, (val_main_v40 (F := Ideal) lab (ix1 a)).toNat = count lab := by
    simp only [validWord_at, toNat_setWidth_ofBool]
    unfold count
    rw [Finset.card_filter]
  rw [WordSum.toNat_sum _ _ (by rw [hs]; exact lt_of_le_of_lt (count_le lab) (by norm_num)), hs]

theorem countPos_at (j : S_.Idx) :
    val_main_v44 (F := Ideal) lab j = BitVec.ofBool (decide (0 < count lab)) := by
  rw [val_main_v44_apply, val_main_c_13_apply]
  exact sgt_zero_of_small (count_toNat lab j) (count_le lab)

theorem denom_at (j : S_.Idx) :
    val_main_v46 (F := Ideal) lab j = (((max (count lab) 1 : ℕ) : ℝ) : EReal) := by
  rw [val_main_v46_apply, val_main_v45_apply, val_main_c_14_apply]
  show ((((IntOp.maxsi (val_main_v41 (F := Ideal) lab j) 1#32).toInt : ℤ) : ℝ) : EReal) = _
  rw [toInt_maxsi_one_of_small (count_toNat lab j) (count_le lab), Int.cast_natCast]

/-! ### The sum of the valid rows' losses, and the mean -/

theorem rowLoss_at (i : Fin 4096) :
    val_main_v42 (F := Ideal) x lab (ix1 i) = if valid lab i then rowLoss x lab i else 0 := by
  rw [val_main_v42_apply, valid_at, val_main_v39_apply, val_main_v37_apply, val_main_v35_apply, hardPos_at,
    hardNeg_at, val_main_v36_apply, val_main_cst_8_apply, val_main_v38_apply, val_main_cst_9_apply,
    val_main_call2_v1_apply, val_main_call2_v0_apply, val_main_cst_11_apply, select_ofBool]
  simp only [Ideal.ofBits_def, Ideal.ofBits_zero_f32]
  rfl

theorem total_at (j : S_.Idx) : val_main_v43 (F := Ideal) x lab j = total x lab := by
  rw [val_main_v43_apply, val_main_cst_12_apply, sum_idx1]
  simp only [rowLoss_at, Ideal.ofBits_def, Ideal.ofBits_zero_f32, zero_add]
  rfl

theorem loss_at (j : S_.Idx) : val_main_v48 (F := Ideal) x lab j = loss x lab := by
  rw [val_main_v48_apply, countPos_at, val_main_v47_apply, total_at, denom_at, val_main_cst_15_apply,
    select_ofBool]
  simp only [Ideal.ofBits_def, Ideal.ofBits_zero_f32, Ideal.hostDivf_def, decide_eq_true_eq]
  rfl

/-- The program's last stage, as a function of its two arguments, is the loss at its one index. -/
theorem stage_eq : val_main_v48 (F := Ideal) x lab = fun _ => loss x lab :=
  funext fun j => loss_at x lab j

end Stages

end Cert.Triplet.Ref

end
-- ==== Proof.lean ====
/-
  The triplet-loss kernel against its reference, over the extended reals.

  Both programs compute, from the feature matrix x (4096 × 256) and the labels (4096 words), the mean over the VALID
  rows of max (hardPos i − hardNeg i + margin) 0, where dist i j = sqrt (max ((‖xᵢ‖² + ‖xⱼ‖²) − 2·⟨xᵢ, xⱼ⟩) ε), hardPos i
  is the largest distance to a row of the same label (other than i), hardNeg i the smallest distance to a row of
  another label, and a row is valid when it has both (Spec.lean). The kernel tiles the rows 128 at a time, forms one
  128 × 4096 strip of distances per tile against the whole matrix and reduces it at once; the reference forms the
  4096 × 4096 matrix. At the ideal instance the two agree term by term: a change of float format is the identity, the
  matrix unit's product into a zero accumulator is the plain sum of products, the reductions fold one commutative,
  associative operation over the same set. The kernel's count of valid rows is a float sum of 0/1 flags and its total
  a sum of flag · loss, the reference's an integer count and a sum of selected losses: equal because 1·r = r and
  0·r = 0 for every extended real r, and a sum of 4096 flags is that natural number on both sides.

  The frames: the kernel program's run is the launch of its one pipeline between host operations (KRun.lean, the same
  text at the word-level instance); the reference's is its operations' run.
-/
import proofs.«125580_j86758339379639_1_alg».proof.Defs
import proofs.«125580_j86758339379639_1_alg».proof.Proof.Gen.Kernel
import proofs.«125580_j86758339379639_1_alg».proof.Proof.Gen.KernelIdeal
import proofs.«125580_j86758339379639_1_alg».proof.Proof.Gen.ReferenceIdeal
import proofs.«125580_j86758339379639_1_alg».proof.Proof.Gen.Pre_finite_inputs
import proofs.«125580_j86758339379639_1_alg».proof.Proof.BRun
import proofs.«125580_j86758339379639_1_alg».proof.Proof.KValue
import proofs.«125580_j86758339379639_1_alg».proof.Proof.RefRun
import proofs.«125580_j86758339379639_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨(h c).2.1, (h c).2.2⟩) (Cert.Kernel.Hand.run_main (F := Bits) m ρ)

/-- So does the idealized one. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => ⟨(h c).2.1, (h c).2.2⟩) (Cert.KernelIdeal.Hand.run_main (F := Ideal) m ρ)

/-- The reference is host operations only: its run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- From memories agreeing on the arguments both programs end with the specification's loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Triplet.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_result m ρ c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Triplet.Ref.stage_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
